-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x64 : Shape := ⟨2, ![120000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S120000x64 : S_.BroadcastsInDim S120000x64 (![] : Fin 0 → Fin S120000x64.rank)
  reducesTo_S120000x64_S_d0_1 : S120000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x256 .f32) (main_arg9 : FVec F S1 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S1x256 .f32) (main_arg9 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S120000x64 .f32) (main_arg1 : IVec S2x1200000 32) (main_arg2 : FVec F S64x64 .f32) (main_arg3 : FVec F S64 .f32) (main_arg4 : FVec F S256x64 .f32) (main_arg5 : FVec F S256 .f32) (main_arg6 : FVec F S256x256 .f32) (main_arg7 : FVec F S256 .f32) (main_arg8 : FVec F S1x256 .f32) (main_arg9 : FVec F S1 .f32) : IVec S_ 1 :=
  let main_v0 : FVec F S120000x64 .f32 := Host.absf main_arg0
  let main_cst : FVec F S_ .f32 := constant S_ .f32 0x7F800000#32
  let main_v1 : FVec F S120000x64 .f32 := broadcastInDim S120000x64 ![] bcast_S_S120000x64 main_cst
  let main_v2 : IVec S120000x64 1 := cmpf .olt main_v0 main_v1
  let main_c : IVec S_ 1 := constantI S_ 1 1#1
  let main_v3 : IVec S_ 1 := (fun x v => Host.reduce IntOp.andi x v reducesTo_S120000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S120000x64 : Shape := ⟨2, ![120000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S120000 : Shape := ⟨1, ![120000]⟩
abbrev S1x1200000 : Shape := ⟨2, ![1, 1200000]⟩
abbrev S1200000 : Shape := ⟨1, ![1200000]⟩
abbrev S1320000 : Shape := ⟨1, ![1320000]⟩
abbrev S_ : Shape := ⟨0, ![]⟩
abbrev S1320000x1 : Shape := ⟨2, ![1320000, 1]⟩
abbrev S1320000x64 : Shape := ⟨2, ![1320000, 64]⟩
abbrev S1x64 : Shape := ⟨2, ![1, 64]⟩
abbrev S64x256 : Shape := ⟨2, ![64, 256]⟩
abbrev S256x1 : Shape := ⟨2, ![256, 1]⟩
abbrev S120000x1 : Shape := ⟨2, ![120000, 1]⟩
abbrev S6000x64 : Shape := ⟨2, ![6000, 64]⟩
abbrev S6000x1 : Shape := ⟨2, ![6000, 1]⟩
abbrev S6000x256 : Shape := ⟨2, ![6000, 256]⟩
abbrev S1x1 : Shape := ⟨2, ![1, 1]⟩
abbrev S20000x6x1 : Shape := ⟨3, ![20000, 6, 1]⟩

abbrev nBuf : Space → Nat
  | .hbm => 82
  | .vmem => 12
  | .smem => 0
  | _ => 0

abbrev bufTy : (tb : Table) → Fin (tcTables nBuf tb) → BufTy
  | .hbm, ⟨0, _⟩ => ⟨S120000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S120000, .i32⟩
  | .hbm, ⟨11, _⟩ => ⟨S1x1200000, .i32⟩
  | .hbm, ⟨12, _⟩ => ⟨S1200000, .i32⟩
  | .hbm, ⟨13, _⟩ => ⟨S1320000, .i32⟩
  | .hbm, ⟨14, _⟩ => ⟨S1x1200000, .i32⟩
  | .hbm, ⟨15, _⟩ => ⟨S1200000, .i32⟩
  | .hbm, ⟨16, _⟩ => ⟨S1320000, .i32⟩
  | .hbm, ⟨17, _⟩ => ⟨S_, .f32⟩
  | .hbm, ⟨18, _⟩ => ⟨S120000, .f32⟩
  | .hbm, ⟨19, _⟩ => ⟨S_, .i32⟩
  | .hbm, ⟨20, _⟩ => ⟨S1320000, .i32⟩
  | .hbm, ⟨21, _⟩ => ⟨S1320000, .i1⟩
  | .hbm, ⟨22, _⟩ => ⟨S_, .i32⟩
  | .hbm, ⟨23, _⟩ => ⟨S1320000, .i32⟩
  | .hbm, ⟨24, _⟩ => ⟨S1320000, .i32⟩
  | .hbm, ⟨25, _⟩ => ⟨S1320000, .i32⟩
  | .hbm, ⟨26, _⟩ => ⟨S1320000x1, .i32⟩
  | .hbm, ⟨27, _⟩ => ⟨S_, .f32⟩
  | .hbm, ⟨28, _⟩ => ⟨S1320000, .f32⟩
  | .hbm, ⟨29, _⟩ => ⟨S120000, .f32⟩
  | .hbm, ⟨30, _⟩ => ⟨S_, .f32⟩
  | .hbm, ⟨31, _⟩ => ⟨S120000, .f32⟩
  | .hbm, ⟨32, _⟩ => ⟨S120000, .i1⟩
  | .hbm, ⟨33, _⟩ => ⟨S120000, .f32⟩
  | .hbm, ⟨34, _⟩ => ⟨S_, .f32⟩
  | .hbm, ⟨35, _⟩ => ⟨S_, .f32⟩
  | .hbm, ⟨36, _⟩ => ⟨S120000, .f32⟩
  | .hbm, ⟨37, _⟩ => ⟨S120000, .f32⟩
  | .hbm, ⟨38, _⟩ => ⟨S_, .i32⟩
  | .hbm, ⟨39, _⟩ => ⟨S1320000, .i32⟩
  | .hbm, ⟨40, _⟩ => ⟨S1320000, .i1⟩
  | .hbm, ⟨41, _⟩ => ⟨S_, .i32⟩
  | .hbm, ⟨42, _⟩ => ⟨S1320000, .i32⟩
  | .hbm, ⟨43, _⟩ => ⟨S1320000, .i32⟩
  | .hbm, ⟨44, _⟩ => ⟨S1320000, .i32⟩
  | .hbm, ⟨45, _⟩ => ⟨S1320000x1, .i32⟩
  | .hbm, ⟨46, _⟩ => ⟨S1320000, .f32⟩
  | .hbm, ⟨47, _⟩ => ⟨S_, .i32⟩
  | .hbm, ⟨48, _⟩ => ⟨S1320000, .i32⟩
  | .hbm, ⟨49, _⟩ => ⟨S1320000, .i1⟩
  | .hbm, ⟨50, _⟩ => ⟨S_, .i32⟩
  | .hbm, ⟨51, _⟩ => ⟨S1320000, .i32⟩
  | .hbm, ⟨52, _⟩ => ⟨S1320000, .i32⟩
  | .hbm, ⟨53, _⟩ => ⟨S1320000, .i32⟩
  | .hbm, ⟨54, _⟩ => ⟨S1320000x1, .i32⟩
  | .hbm, ⟨55, _⟩ => ⟨S1320000, .f32⟩
  | .hbm, ⟨56, _⟩ => ⟨S1320000, .f32⟩
  | .hbm, ⟨57, _⟩ => ⟨S120000x64, .f32⟩
  | .hbm, ⟨58, _⟩ => ⟨S_, .i32⟩
  | .hbm, ⟨59, _⟩ => ⟨S1320000, .i32⟩
  | .hbm, ⟨60, _⟩ => ⟨S1320000, .i1⟩
  | .hbm, ⟨61, _⟩ => ⟨S_, .i32⟩
  | .hbm, ⟨62, _⟩ => ⟨S1320000, .i32⟩
  | .hbm, ⟨63, _⟩ => ⟨S1320000, .i32⟩
  | .hbm, ⟨64, _⟩ => ⟨S1320000, .i32⟩
  | .hbm, ⟨65, _⟩ => ⟨S1320000x1, .i32⟩
  | .hbm, ⟨66, _⟩ => ⟨S1320000x64, .f32⟩
  | .hbm, ⟨67, _⟩ => ⟨S1320000x1, .f32⟩
  | .hbm, ⟨68, _⟩ => ⟨S1320000x64, .f32⟩
  | .hbm, ⟨69, _⟩ => ⟨S1320000x64, .f32⟩
  | .hbm, ⟨70, _⟩ => ⟨S_, .f32⟩
  | .hbm, ⟨71, _⟩ => ⟨S120000x64, .f32⟩
  | .hbm, ⟨72, _⟩ => ⟨S1320000x1, .i32⟩
  | .hbm, ⟨73, _⟩ => ⟨S120000x64, .f32⟩
  | .hbm, ⟨74, _⟩ => ⟨S1x64, .f32⟩
  | .hbm, ⟨75, _⟩ => ⟨S120000x64, .f32⟩
  | .hbm, ⟨76, _⟩ => ⟨S120000x64, .f32⟩
  | .hbm, ⟨77, _⟩ => ⟨S64x256, .f32⟩
  | .hbm, ⟨78, _⟩ => ⟨S256x256, .f32⟩
  | .hbm, ⟨79, _⟩ => ⟨S256x1, .f32⟩
  | .hbm, ⟨80, _⟩ => ⟨S120000x1, .f32⟩
  | .hbm, ⟨81, _⟩ => ⟨S20000x6x1, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x1, .f32⟩
  | .local _ .vmem, ⟨9, _⟩ => ⟨S1, .f32⟩
  | .local _ .vmem, ⟨10, _⟩ => ⟨S6000x1, .f32⟩
  | .local _ .vmem, ⟨11, _⟩ => ⟨S6000x1, .f32⟩
  | _, _ => ⟨S120000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S120000_S1320000_d0 : Shape.Concatenates [S1200000, S120000] S1320000 0
  slices_S2x1200000_S1x1200000_1_0 : S2x1200000.Slices ![1, 0] S1x1200000
  bcast_S_S120000 : S_.BroadcastsInDim S120000 (![] : Fin 0 → Fin S120000.rank)
  bcast_S_S1320000 : S_.BroadcastsInDim S1320000 (![] : Fin 0 → Fin S1320000.rank)
  bcast_S1320000_S1320000x1_0 : S1320000.BroadcastsInDim S1320000x1 (![0] : Fin 1 → Fin S1320000x1.rank)
  bcast_S1320000x1_S1320000x64_0_1 : S1320000x1.BroadcastsInDim S1320000x64 (![0, 1] : Fin 2 → Fin S1320000x64.rank)
  bcast_S_S120000x64 : S_.BroadcastsInDim S120000x64 (![] : Fin 0 → Fin S120000x64.rank)
  bcast_S64_S1x64_1 : S64.BroadcastsInDim S1x64 (![1] : Fin 1 → Fin S1x64.rank)
  bcast_S1x64_S120000x64_0_1 : S1x64.BroadcastsInDim S120000x64 (![0, 1] : Fin 2 → Fin S120000x64.rank)
  transposes_S256x64_S64x256_1_0 : S256x64.Transposes [1, 0] S64x256
  transposes_S256x256_S256x256_1_0 : S256x256.Transposes [1, 0] S256x256
  transposes_S1x256_S256x1_1_0 : S1x256.Transposes [1, 0] S256x1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S6000x256 : S1x256.Broadcasts S6000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  shapeCasts_S120000x1_S20000x6x1 : S120000x1.ShapeCasts S20000x6x1
  scatter_S120000_S1320000x1_S1320000_n_0_0_1_wf : ScatterDims.WF S120000 S1320000x1 S1320000 [] [0] [0] 1
  gather_S120000_S1320000x1_S1320000_n_0_n_n_0_1_1_wf : GatherDims.WF S120000 S1320000x1 S1320000 [] [0] [] [0] [] 1 ![1]
  dot_S120000x64_S64x64_S120000x64_1_0_0_1_n_n_wf : DotDims.WF S120000x64 S64x64 S120000x64 [1] [0] [0] [1] [] []
  gather_S120000x64_S1320000x1_S1320000x64_1_0_n_n_0_1_164_wf : GatherDims.WF S120000x64 S1320000x1 S1320000x64 [1] [0] [] [0] [] 1 ![1, 64]
  scatter_S120000x64_S1320000x1_S1320000x64_1_0_0_1_wf : ScatterDims.WF S120000x64 S1320000x1 S1320000x64 [1] [0] [0] 1
  dot_S6000x64_S64x256_S6000x256_1_0_0_1_n_n_wf : DotDims.WF S6000x64 S64x256 S6000x256 [1] [0] [0] [1] [] []
  dot_S6000x256_S256x256_S6000x256_1_0_0_1_n_n_wf : DotDims.WF S6000x256 S256x256 S6000x256 [1] [0] [0] [1] [] []
  dot_S6000x256_S256x1_S6000x1_1_0_0_1_n_n_wf : DotDims.WF S6000x256 S256x1 S6000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S120000x64.size a
  hwx0_0 : ∀ i : grid0.Coords, EltTy.bits .f32 = 32 ∨ (Rect.block (s := S120000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S120000x64.size a
  hwx0_1 : ∀ i : grid0.Coords, EltTy.bits .f32 = 32 ∨ (Rect.block (s := S120000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6000x1.size a ≤ S120000x1.size a
  hwx0_8 : ∀ i : grid0.Coords, EltTy.bits .f32 = 32 ∨ (Rect.block (s := S120000x1) S6000x1.size (cc0_transform_8 i) (hinb0_8 i)).WholeWords (EltTy.packing .f32)

variable [Facts₀]

def scatter_S120000_S1320000x1_S1320000_n_0_0_1 : ScatterDims S120000 S1320000x1 S1320000 where
  updateWindowDims := []
  insertedWindowDims := [0]
  scatterDimsToOperandDims := [0]
  indexVectorDim := 1
  wf := scatter_S120000_S1320000x1_S1320000_n_0_0_1_wf
def gather_S120000_S1320000x1_S1320000_n_0_n_n_0_1_1 : GatherDims S120000 S1320000x1 S1320000 where
  offsetDims := []
  collapsedSliceDims := [0]
  operandBatchingDims := []
  startIndicesBatchingDims := []
  startIndexMap := [0]
  indexVectorDim := 1
  sliceSizes := ![1]
  wf := gather_S120000_S1320000x1_S1320000_n_0_n_n_0_1_1_wf
def dot_S120000x64_S64x64_S120000x64_1_0_0_1_n_n : DotDims S120000x64 S64x64 S120000x64 where
  lhsContracting := [1]
  rhsContracting := [0]
  lhsNonContracting := [0]
  rhsNonContracting := [1]
  lhsBatch := []
  rhsBatch := []
  wf := dot_S120000x64_S64x64_S120000x64_1_0_0_1_n_n_wf
def gather_S120000x64_S1320000x1_S1320000x64_1_0_n_n_0_1_164 : GatherDims S120000x64 S1320000x1 S1320000x64 where
  offsetDims := [1]
  collapsedSliceDims := [0]
  operandBatchingDims := []
  startIndicesBatchingDims := []
  startIndexMap := [0]
  indexVectorDim := 1
  sliceSizes := ![1, 64]
  wf := gather_S120000x64_S1320000x1_S1320000x64_1_0_n_n_0_1_164_wf
def scatter_S120000x64_S1320000x1_S1320000x64_1_0_0_1 : ScatterDims S120000x64 S1320000x1 S1320000x64 where
  updateWindowDims := [1]
  insertedWindowDims := [0]
  scatterDimsToOperandDims := [0]
  indexVectorDim := 1
  wf := scatter_S120000x64_S1320000x1_S1320000x64_1_0_0_1_wf
def dot_S6000x64_S64x256_S6000x256_1_0_0_1_n_n : DotDims S6000x64 S64x256 S6000x256 where
  lhsContracting := [1]
  rhsContracting := [0]
  lhsNonContracting := [0]
  rhsNonContracting := [1]
  lhsBatch := []
  rhsBatch := []
  wf := dot_S6000x64_S64x256_S6000x256_1_0_0_1_n_n_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf
def dot_S6000x256_S256x1_S6000x1_1_0_0_1_n_n : DotDims S6000x256 S256x1 S6000x1 where
  lhsContracting := [1]
  rhsContracting := [0]
  lhsNonContracting := [0]
  rhsNonContracting := [1]
  lhsBatch := []
  rhsBatch := []
  wf := dot_S6000x256_S256x1_S6000x1_1_0_0_1_n_n_wf

abbrev win0_0 : Pipeline.Window sig grid0 :=
  Pipeline.Window.ofSpec (Memref.whole main_v51) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v54) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S6000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S120000x64 : Shape := ⟨2, ![120000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S120000 : Shape := ⟨1, ![120000]⟩
abbrev S1x1200000 : Shape := ⟨2, ![1, 1200000]⟩
abbrev S1200000 : Shape := ⟨1, ![1200000]⟩
abbrev S1320000 : Shape := ⟨1, ![1320000]⟩
abbrev S_ : Shape := ⟨0, ![]⟩
abbrev S1320000x1 : Shape := ⟨2, ![1320000, 1]⟩
abbrev S1320000x64 : Shape := ⟨2, ![1320000, 64]⟩
abbrev S1x64 : Shape := ⟨2, ![1, 64]⟩
abbrev S20000x6x64 : Shape := ⟨3, ![20000, 6, 64]⟩
abbrev S20000x6x256 : Shape := ⟨3, ![20000, 6, 256]⟩
abbrev S1x1x256 : Shape := ⟨3, ![1, 1, 256]⟩
abbrev S20000x6x1 : Shape := ⟨3, ![20000, 6, 1]⟩
abbrev S1x1x1 : Shape := ⟨3, ![1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S120000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S120000, .i32⟩
  | .hbm, ⟨11, _⟩ => ⟨S1x1200000, .i32⟩
  | .hbm, ⟨12, _⟩ => ⟨S1200000, .i32⟩
  | .hbm, ⟨13, _⟩ => ⟨S1320000, .i32⟩
  | .hbm, ⟨14, _⟩ => ⟨S1x1200000, .i32⟩
  | .hbm, ⟨15, _⟩ => ⟨S1200000, .i32⟩
  | .hbm, ⟨16, _⟩ => ⟨S1320000, .i32⟩
  | .hbm, ⟨17, _⟩ => ⟨S_, .f32⟩
  | .hbm, ⟨18, _⟩ => ⟨S120000, .f32⟩
  | .hbm, ⟨19, _⟩ => ⟨S_, .i32⟩
  | .hbm, ⟨20, _⟩ => ⟨S1320000, .i32⟩
  | .hbm, ⟨21, _⟩ => ⟨S1320000, .i1⟩
  | .hbm, ⟨22, _⟩ => ⟨S_, .i32⟩
  | .hbm, ⟨23, _⟩ => ⟨S1320000, .i32⟩
  | .hbm, ⟨24, _⟩ => ⟨S1320000, .i32⟩
  | .hbm, ⟨25, _⟩ => ⟨S1320000, .i32⟩
  | .hbm, ⟨26, _⟩ => ⟨S1320000x1, .i32⟩
  | .hbm, ⟨27, _⟩ => ⟨S_, .f32⟩
  | .hbm, ⟨28, _⟩ => ⟨S1320000, .f32⟩
  | .hbm, ⟨29, _⟩ => ⟨S120000, .f32⟩
  | .hbm, ⟨30, _⟩ => ⟨S_, .f32⟩
  | .hbm, ⟨31, _⟩ => ⟨S120000, .f32⟩
  | .hbm, ⟨32, _⟩ => ⟨S120000, .i1⟩
  | .hbm, ⟨33, _⟩ => ⟨S120000, .f32⟩
  | .hbm, ⟨34, _⟩ => ⟨S_, .f32⟩
  | .hbm, ⟨35, _⟩ => ⟨S_, .f32⟩
  | .hbm, ⟨36, _⟩ => ⟨S120000, .f32⟩
  | .hbm, ⟨37, _⟩ => ⟨S120000, .f32⟩
  | .hbm, ⟨38, _⟩ => ⟨S_, .i32⟩
  | .hbm, ⟨39, _⟩ => ⟨S1320000, .i32⟩
  | .hbm, ⟨40, _⟩ => ⟨S1320000, .i1⟩
  | .hbm, ⟨41, _⟩ => ⟨S_, .i32⟩
  | .hbm, ⟨42, _⟩ => ⟨S1320000, .i32⟩
  | .hbm, ⟨43, _⟩ => ⟨S1320000, .i32⟩
  | .hbm, ⟨44, _⟩ => ⟨S1320000, .i32⟩
  | .hbm, ⟨45, _⟩ => ⟨S1320000x1, .i32⟩
  | .hbm, ⟨46, _⟩ => ⟨S1320000, .f32⟩
  | .hbm, ⟨47, _⟩ => ⟨S_, .i32⟩
  | .hbm, ⟨48, _⟩ => ⟨S1320000, .i32⟩
  | .hbm, ⟨49, _⟩ => ⟨S1320000, .i1⟩
  | .hbm, ⟨50, _⟩ => ⟨S_, .i32⟩
  | .hbm, ⟨51, _⟩ => ⟨S1320000, .i32⟩
  | .hbm, ⟨52, _⟩ => ⟨S1320000, .i32⟩
  | .hbm, ⟨53, _⟩ => ⟨S1320000, .i32⟩
  | .hbm, ⟨54, _⟩ => ⟨S1320000x1, .i32⟩
  | .hbm, ⟨55, _⟩ => ⟨S1320000, .f32⟩
  | .hbm, ⟨56, _⟩ => ⟨S1320000, .f32⟩
  | .hbm, ⟨57, _⟩ => ⟨S120000x64, .f32⟩
  | .hbm, ⟨58, _⟩ => ⟨S_, .i32⟩
  | .hbm, ⟨59, _⟩ => ⟨S1320000, .i32⟩
  | .hbm, ⟨60, _⟩ => ⟨S1320000, .i1⟩
  | .hbm, ⟨61, _⟩ => ⟨S_, .i32⟩
  | .hbm, ⟨62, _⟩ => ⟨S1320000, .i32⟩
  | .hbm, ⟨63, _⟩ => ⟨S1320000, .i32⟩
  | .hbm, ⟨64, _⟩ => ⟨S1320000, .i32⟩
  | .hbm, ⟨65, _⟩ => ⟨S1320000x1, .i32⟩
  | .hbm, ⟨66, _⟩ => ⟨S1320000x64, .f32⟩
  | .hbm, ⟨67, _⟩ => ⟨S1320000x1, .f32⟩
  | .hbm, ⟨68, _⟩ => ⟨S1320000x64, .f32⟩
  | .hbm, ⟨69, _⟩ => ⟨S1320000x64, .f32⟩
  | .hbm, ⟨70, _⟩ => ⟨S_, .f32⟩
  | .hbm, ⟨71, _⟩ => ⟨S120000x64, .f32⟩
  | .hbm, ⟨72, _⟩ => ⟨S1320000x1, .i32⟩
  | .hbm, ⟨73, _⟩ => ⟨S120000x64, .f32⟩
  | .hbm, ⟨74, _⟩ => ⟨S1x64, .f32⟩
  | .hbm, ⟨75, _⟩ => ⟨S120000x64, .f32⟩
  | .hbm, ⟨76, _⟩ => ⟨S120000x64, .f32⟩
  | .hbm, ⟨77, _⟩ => ⟨S_, .f32⟩
  | .hbm, ⟨78, _⟩ => ⟨S120000x64, .f32⟩
  | .hbm, ⟨79, _⟩ => ⟨S120000x64, .f32⟩
  | .hbm, ⟨80, _⟩ => ⟨S120000x64, .f32⟩
  | .hbm, ⟨81, _⟩ => ⟨S20000x6x64, .f32⟩
  | .hbm, ⟨82, _⟩ => ⟨S20000x6x256, .f32⟩
  | .hbm, ⟨83, _⟩ => ⟨S1x1x256, .f32⟩
  | .hbm, ⟨84, _⟩ => ⟨S20000x6x256, .f32⟩
  | .hbm, ⟨85, _⟩ => ⟨S20000x6x256, .f32⟩
  | .hbm, ⟨86, _⟩ => ⟨S_, .f32⟩
  | .hbm, ⟨87, _⟩ => ⟨S20000x6x256, .f32⟩
  | .hbm, ⟨88, _⟩ => ⟨S20000x6x256, .i1⟩
  | .hbm, ⟨89, _⟩ => ⟨S_, .f32⟩
  | .hbm, ⟨90, _⟩ => ⟨S20000x6x256, .f32⟩
  | .hbm, ⟨91, _⟩ => ⟨S20000x6x256, .f32⟩
  | .hbm, ⟨92, _⟩ => ⟨S20000x6x256, .f32⟩
  | .hbm, ⟨93, _⟩ => ⟨S20000x6x256, .f32⟩
  | .hbm, ⟨94, _⟩ => ⟨S1x1x256, .f32⟩
  | .hbm, ⟨95, _⟩ => ⟨S20000x6x256, .f32⟩
  | .hbm, ⟨96, _⟩ => ⟨S20000x6x256, .f32⟩
  | .hbm, ⟨97, _⟩ => ⟨S_, .f32⟩
  | .hbm, ⟨98, _⟩ => ⟨S20000x6x256, .f32⟩
  | .hbm, ⟨99, _⟩ => ⟨S20000x6x256, .i1⟩
  | .hbm, ⟨100, _⟩ => ⟨S_, .f32⟩
  | .hbm, ⟨101, _⟩ => ⟨S20000x6x256, .f32⟩
  | .hbm, ⟨102, _⟩ => ⟨S20000x6x256, .f32⟩
  | .hbm, ⟨103, _⟩ => ⟨S20000x6x256, .f32⟩
  | .hbm, ⟨104, _⟩ => ⟨S20000x6x1, .f32⟩
  | .hbm, ⟨105, _⟩ => ⟨S1x1x1, .f32⟩
  | .hbm, ⟨106, _⟩ => ⟨S20000x6x1, .f32⟩
  | .hbm, ⟨107, _⟩ => ⟨S20000x6x1, .f32⟩
  | _, _ => ⟨S120000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_cst_0 : Ref sig .tc := ⟨.hbm, 100, rfl⟩
abbrev main_call3_v2 : Ref sig .tc := ⟨.hbm, 101, rfl⟩
abbrev main_call3_v3 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S120000_S1320000_d0 : Shape.Concatenates [S1200000, S120000] S1320000 0
  slices_S2x1200000_S1x1200000_1_0 : S2x1200000.Slices ![1, 0] S1x1200000
  bcast_S_S120000 : S_.BroadcastsInDim S120000 (![] : Fin 0 → Fin S120000.rank)
  bcast_S_S1320000 : S_.BroadcastsInDim S1320000 (![] : Fin 0 → Fin S1320000.rank)
  bcast_S1320000_S1320000x1_0 : S1320000.BroadcastsInDim S1320000x1 (![0] : Fin 1 → Fin S1320000x1.rank)
  bcast_S1320000x1_S1320000x64_0_1 : S1320000x1.BroadcastsInDim S1320000x64 (![0, 1] : Fin 2 → Fin S1320000x64.rank)
  bcast_S_S120000x64 : S_.BroadcastsInDim S120000x64 (![] : Fin 0 → Fin S120000x64.rank)
  bcast_S64_S1x64_1 : S64.BroadcastsInDim S1x64 (![1] : Fin 1 → Fin S1x64.rank)
  bcast_S1x64_S120000x64_0_1 : S1x64.BroadcastsInDim S120000x64 (![0, 1] : Fin 2 → Fin S120000x64.rank)
  shapeCasts_S120000x64_S20000x6x64 : S120000x64.ShapeCasts S20000x6x64
  bcast_S256_S1x1x256_2 : S256.BroadcastsInDim S1x1x256 (![2] : Fin 1 → Fin S1x1x256.rank)
  bcast_S1x1x256_S20000x6x256_0_1_2 : S1x1x256.BroadcastsInDim S20000x6x256 (![0, 1, 2] : Fin 3 → Fin S20000x6x256.rank)
  bcast_S_S20000x6x256 : S_.BroadcastsInDim S20000x6x256 (![] : Fin 0 → Fin S20000x6x256.rank)
  bcast_S1_S1x1x1_2 : S1.BroadcastsInDim S1x1x1 (![2] : Fin 1 → Fin S1x1x1.rank)
  bcast_S1x1x1_S20000x6x1_0_1_2 : S1x1x1.BroadcastsInDim S20000x6x1 (![0, 1, 2] : Fin 3 → Fin S20000x6x1.rank)
  scatter_S120000_S1320000x1_S1320000_n_0_0_1_wf : ScatterDims.WF S120000 S1320000x1 S1320000 [] [0] [0] 1
  gather_S120000_S1320000x1_S1320000_n_0_n_n_0_1_1_wf : GatherDims.WF S120000 S1320000x1 S1320000 [] [0] [] [0] [] 1 ![1]
  dot_S120000x64_S64x64_S120000x64_1_0_0_1_n_n_wf : DotDims.WF S120000x64 S64x64 S120000x64 [1] [0] [0] [1] [] []
  gather_S120000x64_S1320000x1_S1320000x64_1_0_n_n_0_1_164_wf : GatherDims.WF S120000x64 S1320000x1 S1320000x64 [1] [0] [] [0] [] 1 ![1, 64]
  scatter_S120000x64_S1320000x1_S1320000x64_1_0_0_1_wf : ScatterDims.WF S120000x64 S1320000x1 S1320000x64 [1] [0] [0] 1
  dot_S20000x6x64_S256x64_S20000x6x256_2_1_01_0_n_n_wf : DotDims.WF S20000x6x64 S256x64 S20000x6x256 [2] [1] [0, 1] [0] [] []
  dot_S20000x6x256_S256x256_S20000x6x256_2_1_01_0_n_n_wf : DotDims.WF S20000x6x256 S256x256 S20000x6x256 [2] [1] [0, 1] [0] [] []
  dot_S20000x6x256_S1x256_S20000x6x1_2_1_01_0_n_n_wf : DotDims.WF S20000x6x256 S1x256 S20000x6x1 [2] [1] [0, 1] [0] [] []

variable [Facts₀]

def scatter_S120000_S1320000x1_S1320000_n_0_0_1 : ScatterDims S120000 S1320000x1 S1320000 where
  updateWindowDims := []
  insertedWindowDims := [0]
  scatterDimsToOperandDims := [0]
  indexVectorDim := 1
  wf := scatter_S120000_S1320000x1_S1320000_n_0_0_1_wf
def gather_S120000_S1320000x1_S1320000_n_0_n_n_0_1_1 : GatherDims S120000 S1320000x1 S1320000 where
  offsetDims := []
  collapsedSliceDims := [0]
  operandBatchingDims := []
  startIndicesBatchingDims := []
  startIndexMap := [0]
  indexVectorDim := 1
  sliceSizes := ![1]
  wf := gather_S120000_S1320000x1_S1320000_n_0_n_n_0_1_1_wf
def dot_S120000x64_S64x64_S120000x64_1_0_0_1_n_n : DotDims S120000x64 S64x64 S120000x64 where
  lhsContracting := [1]
  rhsContracting := [0]
  lhsNonContracting := [0]
  rhsNonContracting := [1]
  lhsBatch := []
  rhsBatch := []
  wf := dot_S120000x64_S64x64_S120000x64_1_0_0_1_n_n_wf
def gather_S120000x64_S1320000x1_S1320000x64_1_0_n_n_0_1_164 : GatherDims S120000x64 S1320000x1 S1320000x64 where
  offsetDims := [1]
  collapsedSliceDims := [0]
  operandBatchingDims := []
  startIndicesBatchingDims := []
  startIndexMap := [0]
  indexVectorDim := 1
  sliceSizes := ![1, 64]
  wf := gather_S120000x64_S1320000x1_S1320000x64_1_0_n_n_0_1_164_wf
def scatter_S120000x64_S1320000x1_S1320000x64_1_0_0_1 : ScatterDims S120000x64 S1320000x1 S1320000x64 where
  updateWindowDims := [1]
  insertedWindowDims := [0]
  scatterDimsToOperandDims := [0]
  indexVectorDim := 1
  wf := scatter_S120000x64_S1320000x1_S1320000x64_1_0_0_1_wf
def dot_S20000x6x64_S256x64_S20000x6x256_2_1_01_0_n_n : DotDims S20000x6x64 S256x64 S20000x6x256 where
  lhsContracting := [2]
  rhsContracting := [1]
  lhsNonContracting := [0, 1]
  rhsNonContracting := [0]
  lhsBatch := []
  rhsBatch := []
  wf := dot_S20000x6x64_S256x64_S20000x6x256_2_1_01_0_n_n_wf
def dot_S20000x6x256_S256x256_S20000x6x256_2_1_01_0_n_n : DotDims S20000x6x256 S256x256 S20000x6x256 where
  lhsContracting := [2]
  rhsContracting := [1]
  lhsNonContracting := [0, 1]
  rhsNonContracting := [0]
  lhsBatch := []
  rhsBatch := []
  wf := dot_S20000x6x256_S256x256_S20000x6x256_2_1_01_0_n_n_wf
def dot_S20000x6x256_S1x256_S20000x6x1_2_1_01_0_n_n : DotDims S20000x6x256 S1x256 S20000x6x1 where
  lhsContracting := [2]
  rhsContracting := [1]
  lhsNonContracting := [0, 1]
  rhsNonContracting := [0]
  lhsBatch := []
  rhsBatch := []
  wf := dot_S20000x6x256_S1x256_S20000x6x1_2_1_01_0_n_n_wf

class Facts : Prop extends Facts₀ where

variable [Facts]
-- ==== Proof.Spec.lean ====
/-
  The function both programs compute, one node (row) at a time, on the extended reals.

  Given the aggregated features `A` and the node features `x` (both 120000 × 64), a node's hidden state is
  `max(A, 0) + x`; two dense layers with a leaky rectifier follow, and a last dense layer of width one:

      h₀[r, c] = max(A[r, c], 0) + x[r, c]
      h₁[r, h] = ℓ(∑_c h₀[r, c] · W₁[h, c] + b₁[h])
      h₂[r, g] = ℓ(∑_h h₁[r, h] · W₂[g, h] + b₂[g])
      out[r]   = ∑_g h₂[r, g] · W_d[0, g] + b_d[0]

  with `ℓ(v) = v` where `v ≥ 0` and `slope · v` elsewhere, `slope` the single-precision word nearest one hundredth
  (the same word in both programs, so it is never evaluated). The result is laid out as 20000 groups of 6 nodes:
  entry `(b, a, 0)` is node `6·b + a`.
-/
import Idealize.ShloMosaic.PureOps.Ideal
import Idealize.ShloMosaic.Lib.ValueIdx

noncomputable section

open scoped BigOperators

namespace Cert.Spec

open Idealize.ShloMosaic Idealize.ShloMosaic.ValueIdx

/-- A rows-by-columns array of extended reals. -/
abbrev Mat (a b : Nat) : Type := (⟨2, ![a, b]⟩ : Shape).Idx → EReal
/-- A vector of extended reals. -/
abbrev Vec1 (a : Nat) : Type := (⟨1, ![a]⟩ : Shape).Idx → EReal

/-- The zero word. -/
abbrev zero : Ideal .f32 := Ideal.ofBits .f32 0x00000000#32
/-- The rectifier's slope on the negative side: the single-precision word nearest 1/100. -/
abbrev slope : Ideal .f32 := Ideal.ofBits .f32 0x3C23D70A#32

/-- The leaky rectifier: the value itself where it is at least zero, `slope` times it elsewhere. -/
def lrelu (v : Ideal .f32) : Ideal .f32 :=
  Scalar.select (FloatOps.cmpf (F := Ideal) .oge v zero) v (slope * v)

variable (A x : Mat 120000 64) (W1 : Mat 256 64) (b1 : Vec1 256) (W2 : Mat 256 256) (b2 : Vec1 256)
  (Wd : Mat 1 256) (bd : Vec1 1)

/-- The node's state entering the first layer: the rectified aggregate plus the node's own features. -/
def h0 (r : Fin 120000) (c : Fin 64) : EReal := max (A (ix2 r c)) zero + x (ix2 r c)

/-- After the first layer. -/
def h1 (r : Fin 120000) (h : Fin 256) : EReal :=
  lrelu ((∑ c : Fin 64, h0 A x r c * W1 (ix2 h c)) + b1 (ix1 h))

/-- After the second layer. -/
def h2 (r : Fin 120000) (g : Fin 256) : EReal :=
  lrelu ((∑ h : Fin 256, h1 A x W1 b1 r h * W2 (ix2 g h)) + b2 (ix1 g))

/-- The node's output. -/
def out (r : Fin 120000) : EReal :=
  (∑ g : Fin 256, h2 A x W1 b1 W2 b2 r g * Wd (ix2 (0 : Fin 1) g)) + bd (ix1 (0 : Fin 1))

/-- The node an entry of the 20000 × 6 × 1 result belongs to. -/
def row (i : (⟨3, ![20000, 6, 1]⟩ : Shape).Idx) : Fin 120000 :=
  ⟨6 * (i 0).val + (i 1).val, by
    have h0 : (i 0).val < 20000 := (i 0).isLt
    have h1 : (i 1).val < 6 := (i 1).isLt
    omega⟩

/-- The whole result. -/
def G : (⟨3, ![20000, 6, 1]⟩ : Shape).Idx → EReal := fun i => out A x W1 b1 W2 b2 Wd bd (row i)

end Cert.Spec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KernelRow.lean ====
/-
  The kernel body's arithmetic at one row of its block. The body computes, from a block of 6000 rows of the aggregate
  and of the node features and the whole (pre-transposed) weights, the 6000 outputs; at row `p` of the block this is the
  node's output, given that the blocks' entries are the arrays' entries at the node's row and that the transposed
  weights read the weights with the two axes exchanged.
-/
import proofs.«106632_j54503134986926_1_alg».proof.Proof.Gen.KernelIdeal.Skeleton
import proofs.«106632_j54503134986926_1_alg».proof.Proof.Spec
import proofs.«106632_j54503134986926_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Idealize.ShloMosaic Idealize.ShloMosaic.TcCoe Idealize.ShloMosaic.ValueIdx

/-! The dimension numbers of the product `6000x64 · 64x256`: one contracted axis of extent 64; the left operand is
    read at the entry's row and the contraction position, the right operand at the contraction position and the
    entry's column. -/

private theorem d1_rank : dot_S6000x64_S64x256_S6000x256_1_0_0_1_n_n.contr.rank = 1 := rfl
private theorem d1_size : dot_S6000x64_S64x256_S6000x256_1_0_0_1_n_n.contr.size ⟨0, by decide⟩ = 64 := rfl
private theorem d1_l0 (i : S6000x256.Idx) (q : dot_S6000x64_S64x256_S6000x256_1_0_0_1_n_n.contr.Idx) :
    (dot_S6000x64_S64x256_S6000x256_1_0_0_1_n_n.lhsIdx i q 0).val = (i 0).val := by
  simp [DotDims.lhsIdx, dot_S6000x64_S64x256_S6000x256_1_0_0_1_n_n]; rfl
private theorem d1_l1 (i : S6000x256.Idx) (q : dot_S6000x64_S64x256_S6000x256_1_0_0_1_n_n.contr.Idx) :
    (dot_S6000x64_S64x256_S6000x256_1_0_0_1_n_n.lhsIdx i q 1).val = (q ⟨0, by decide⟩).val :=
  DotDims.lhsIdx_val_of_single _ (cl := 1) rfl i q
private theorem d1_r0 (i : S6000x256.Idx) (q : dot_S6000x64_S64x256_S6000x256_1_0_0_1_n_n.contr.Idx) :
    (dot_S6000x64_S64x256_S6000x256_1_0_0_1_n_n.rhsIdx i q 0).val = (q ⟨0, by decide⟩).val :=
  DotDims.rhsIdx_val_of_single _ (cr := 0) rfl i q
private theorem d1_r1 (i : S6000x256.Idx) (q : dot_S6000x64_S64x256_S6000x256_1_0_0_1_n_n.contr.Idx) :
    (dot_S6000x64_S64x256_S6000x256_1_0_0_1_n_n.rhsIdx i q 1).val = (i 1).val := by
  simp [DotDims.rhsIdx, dot_S6000x64_S64x256_S6000x256_1_0_0_1_n_n]; rfl

/-! The dimension numbers of the product `6000x256 · 256x256`: one contracted axis of extent 256; the left operand is
    read at the entry's row and the contraction position, the right operand at the contraction position and the
    entry's column. -/

private theorem d2_rank : dot_S6000x256_S256x256_S6000x256_1_0_0_1_n_n.contr.rank = 1 := rfl
private theorem d2_size : dot_S6000x256_S256x256_S6000x256_1_0_0_1_n_n.contr.size ⟨0, by decide⟩ = 256 := rfl
private theorem d2_l0 (i : S6000x256.Idx) (q : dot_S6000x256_S256x256_S6000x256_1_0_0_1_n_n.contr.Idx) :
    (dot_S6000x256_S256x256_S6000x256_1_0_0_1_n_n.lhsIdx i q 0).val = (i 0).val := by
  simp [DotDims.lhsIdx, dot_S6000x256_S256x256_S6000x256_1_0_0_1_n_n]; rfl
private theorem d2_l1 (i : S6000x256.Idx) (q : dot_S6000x256_S256x256_S6000x256_1_0_0_1_n_n.contr.Idx) :
    (dot_S6000x256_S256x256_S6000x256_1_0_0_1_n_n.lhsIdx i q 1).val = (q ⟨0, by decide⟩).val :=
  DotDims.lhsIdx_val_of_single _ (cl := 1) rfl i q
private theorem d2_r0 (i : S6000x256.Idx) (q : dot_S6000x256_S256x256_S6000x256_1_0_0_1_n_n.contr.Idx) :
    (dot_S6000x256_S256x256_S6000x256_1_0_0_1_n_n.rhsIdx i q 0).val = (q ⟨0, by decide⟩).val :=
  DotDims.rhsIdx_val_of_single _ (cr := 0) rfl i q
private theorem d2_r1 (i : S6000x256.Idx) (q : dot_S6000x256_S256x256_S6000x256_1_0_0_1_n_n.contr.Idx) :
    (dot_S6000x256_S256x256_S6000x256_1_0_0_1_n_n.rhsIdx i q 1).val = (i 1).val := by
  simp [DotDims.rhsIdx, dot_S6000x256_S256x256_S6000x256_1_0_0_1_n_n]; rfl

/-! The dimension numbers of the product `6000x256 · 256x1`: one contracted axis of extent 256; the left operand is
    read at the entry's row and the contraction position, the right operand at the contraction position and the
    entry's column. -/

private theorem d3_rank : dot_S6000x256_S256x1_S6000x1_1_0_0_1_n_n.contr.rank = 1 := rfl
private theorem d3_size : dot_S6000x256_S256x1_S6000x1_1_0_0_1_n_n.contr.size ⟨0, by decide⟩ = 256 := rfl
private theorem d3_l0 (i : S6000x1.Idx) (q : dot_S6000x256_S256x1_S6000x1_1_0_0_1_n_n.contr.Idx) :
    (dot_S6000x256_S256x1_S6000x1_1_0_0_1_n_n.lhsIdx i q 0).val = (i 0).val := by
  simp [DotDims.lhsIdx, dot_S6000x256_S256x1_S6000x1_1_0_0_1_n_n]; rfl
private theorem d3_l1 (i : S6000x1.Idx) (q : dot_S6000x256_S256x1_S6000x1_1_0_0_1_n_n.contr.Idx) :
    (dot_S6000x256_S256x1_S6000x1_1_0_0_1_n_n.lhsIdx i q 1).val = (q ⟨0, by decide⟩).val :=
  DotDims.lhsIdx_val_of_single _ (cl := 1) rfl i q
private theorem d3_r0 (i : S6000x1.Idx) (q : dot_S6000x256_S256x1_S6000x1_1_0_0_1_n_n.contr.Idx) :
    (dot_S6000x256_S256x1_S6000x1_1_0_0_1_n_n.rhsIdx i q 0).val = (q ⟨0, by decide⟩).val :=
  DotDims.rhsIdx_val_of_single _ (cr := 0) rfl i q
private theorem d3_r1 (i : S6000x1.Idx) (q : dot_S6000x256_S256x1_S6000x1_1_0_0_1_n_n.contr.Idx) :
    (dot_S6000x256_S256x1_S6000x1_1_0_0_1_n_n.rhsIdx i q 1).val = (i 1).val := by
  -- both are coordinates on an axis of extent one
  have h1 : (dot_S6000x256_S256x1_S6000x1_1_0_0_1_n_n.rhsIdx i q 1).val < 1 :=
    (dot_S6000x256_S256x1_S6000x1_1_0_0_1_n_n.rhsIdx i q 1).isLt
  have h2 : (i 1).val < 1 := (i 1).isLt
  omega

/-- The state entering the first layer at `(p, c)`: the larger of the aggregate's entry and zero, plus the features'
    entry (a cast to the same shape changes nothing; all three operations act entry by entry). -/
private theorem entry_apply (a f : FVec Ideal S6000x64 .f32) (p : Fin 6000) (c : Fin 64) :
    addf (maximumf (shapeCast S6000x64 a shapeCasts_S6000x64_S6000x64)
        (broadcast S6000x64 (Scalar.ofBits (F := Ideal) .f32 0x00000000#32))) f (ix2 p c)
      = max (a (ix2 p c)) Cert.Spec.zero + f (ix2 p c) := by
  rw [shapeCast_self]; rfl

/-- The rectifier at `(p, h)`: compare with zero, keep the entry or take `slope` times it; entry by entry. -/
private theorem lrelu_apply (v : FVec Ideal S6000x256 .f32) (p : Fin 6000) (h : Fin 256) :
    select (cmpf .oge v (broadcast S6000x256 (Scalar.ofBits (F := Ideal) .f32 0x00000000#32))) v
        (mulf (broadcast S6000x256 (Scalar.ofBits (F := Ideal) .f32 0x3C23D70A#32)) v) (ix2 p h)
      = Cert.Spec.lrelu (v (ix2 p h)) := rfl

/-- The first dense layer at `(p, h)`: the row of the state against column `h` of the weights, plus the bias at `h`. -/
private theorem dense1_apply (l : FVec Ideal S6000x64 .f32) (w : FVec Ideal S64x256 .f32) (b : FVec Ideal S256 .f32)
    (p : Fin 6000) (h : Fin 256) :
    addf (matmul dot_S6000x64_S64x256_S6000x256_1_0_0_1_n_n none l (shapeCast S64x256 w shapeCasts_S64x256_S64x256)
          (constant (F := Ideal) S6000x256 .f32 0x00000000#32))
        (broadcastTo S6000x256 (shapeCast S1x256 b shapeCasts_S256_S1x256) broadcasts_S1x256_S6000x256) (ix2 p h)
      = (∑ c : Fin 64, l (ix2 p c) * w (ix2 c h)) + b (ix1 h) := by
  rw [shapeCast_self]
  exact congrArg₂ (· + ·)
    (Cert.LibPlainDot.matmul_plain_apply dot_S6000x64_S64x256_S6000x256_1_0_0_1_n_n d1_rank d1_size d1_l0 d1_l1 d1_r0 d1_r1 none l w p h)
    (Cert.LibPlainDot.bias_row_apply b shapeCasts_S256_S1x256 broadcasts_S1x256_S6000x256 p h)

/-- The second dense layer at `(p, g)`. -/
private theorem dense2_apply (l : FVec Ideal S6000x256 .f32) (w : FVec Ideal S256x256 .f32) (b : FVec Ideal S256 .f32)
    (p : Fin 6000) (g : Fin 256) :
    addf (matmul dot_S6000x256_S256x256_S6000x256_1_0_0_1_n_n none l (shapeCast S256x256 w shapeCasts_S256x256_S256x256)
          (constant (F := Ideal) S6000x256 .f32 0x00000000#32))
        (broadcastTo S6000x256 (shapeCast S1x256 b shapeCasts_S256_S1x256) broadcasts_S1x256_S6000x256) (ix2 p g)
      = (∑ h : Fin 256, l (ix2 p h) * w (ix2 h g)) + b (ix1 g) := by
  rw [shapeCast_self]
  exact congrArg₂ (· + ·)
    (Cert.LibPlainDot.matmul_plain_apply dot_S6000x256_S256x256_S6000x256_1_0_0_1_n_n d2_rank d2_size d2_l0 d2_l1 d2_r0 d2_r1 none l w p g)
    (Cert.LibPlainDot.bias_row_apply b shapeCasts_S256_S1x256 broadcasts_S1x256_S6000x256 p g)

/-- The last dense layer at `(p, 0)`: one output column. -/
private theorem dense3_apply (l : FVec Ideal S6000x256 .f32) (w : FVec Ideal S256x1 .f32) (b : FVec Ideal S1 .f32)
    (p : Fin 6000) :
    addf (matmul dot_S6000x256_S256x1_S6000x1_1_0_0_1_n_n none l (shapeCast S256x1 w shapeCasts_S256x1_S256x1)
          (constant (F := Ideal) S6000x1 .f32 0x00000000#32))
        (broadcastTo S6000x1 (shapeCast S1x1 b shapeCasts_S1_S1x1) broadcasts_S1x1_S6000x1) (ix2 p (0 : Fin 1))
      = (∑ g : Fin 256, l (ix2 p g) * w (ix2 g (0 : Fin 1))) + b (ix1 (0 : Fin 1)) := by
  rw [shapeCast_self]
  exact congrArg₂ (· + ·)
    (Cert.LibPlainDot.matmul_plain_apply dot_S6000x256_S256x1_S6000x1_1_0_0_1_n_n d3_rank d3_size d3_l0 d3_l1 d3_r0 d3_r1 none l w p (0 : Fin 1))
    (Cert.LibPlainDot.bias_row_apply b shapeCasts_S1_S1x1 broadcasts_S1x1_S6000x1 p (0 : Fin 1))

/-- The body's stored value at row `p` of the block is the output of node `r`, when the blocks hold the arrays' entries
    of node `r` (`e0`, `e1`), the weight blocks the transposed weights (`e2`, `e4`, `e6`) and the bias blocks the biases. -/
theorem pay_apply (A x : Cert.Spec.Mat 120000 64) (W1 : Cert.Spec.Mat 256 64) (b1 : Cert.Spec.Vec1 256)
    (W2 : Cert.Spec.Mat 256 256) (b2 : Cert.Spec.Vec1 256) (Wd : Cert.Spec.Mat 1 256) (bd : Cert.Spec.Vec1 1)
    (x0 x1 : Vec Ideal S6000x64 .f32) (x2 : Vec Ideal S64x256 .f32) (x3 : Vec Ideal S256 .f32)
    (x4 : Vec Ideal S256x256 .f32) (x5 : Vec Ideal S256 .f32) (x6 : Vec Ideal S256x1 .f32) (x7 : Vec Ideal S1 .f32)
    (r : Fin 120000) (p : Fin 6000)
    (e0 : ∀ c : Fin 64, x0 (ix2 p c) = A (ix2 r c)) (e1 : ∀ c : Fin 64, x1 (ix2 p c) = x (ix2 r c))
    (e2 : ∀ (c : Fin 64) (h : Fin 256), x2 (ix2 c h) = W1 (ix2 h c)) (e3 : ∀ h : Fin 256, x3 (ix1 h) = b1 (ix1 h))
    (e4 : ∀ h g : Fin 256, x4 (ix2 h g) = W2 (ix2 g h)) (e5 : ∀ g : Fin 256, x5 (ix1 g) = b2 (ix1 g))
    (e6 : ∀ g : Fin 256, x6 (ix2 g (0 : Fin 1)) = Wd (ix2 (0 : Fin 1) g))
    (e7 : x7 (ix1 (0 : Fin 1)) = bd (ix1 (0 : Fin 1))) :
    k0_pay1 (F := Ideal) x0 x1 x2 x3 x4 x5 x6 x7 (ix2 p (0 : Fin 1)) = Cert.Spec.out A x W1 b1 W2 b2 Wd bd r := by
  unfold k0_pay1
  -- the output layer: a sum over the second hidden layer's units, term by term, and the bias
  refine (dense3_apply _ x6 x7 p).trans ?_
  unfold Cert.Spec.out
  refine congrArg₂ (· + ·) (Finset.sum_congr rfl fun g _ => congrArg₂ (· * ·) ?_ (e6 g)) e7
  -- unit `g` of the second hidden layer: the rectifier of a sum over the first hidden layer's units
  refine (lrelu_apply _ p g).trans ?_
  unfold Cert.Spec.h2
  refine congrArg Cert.Spec.lrelu ?_
  refine (dense2_apply _ x4 x5 p g).trans ?_
  refine congrArg₂ (· + ·) (Finset.sum_congr rfl fun h _ => congrArg₂ (· * ·) ?_ (e4 h g)) (e5 g)
  -- unit `h` of the first hidden layer: the rectifier of a sum over the entering state's columns
  refine (lrelu_apply _ p h).trans ?_
  unfold Cert.Spec.h1
  refine congrArg Cert.Spec.lrelu ?_
  refine (dense1_apply _ x2 x3 p h).trans ?_
  refine congrArg₂ (· + ·) (Finset.sum_congr rfl fun c _ => congrArg₂ (· * ·) ?_ (e2 c h)) (e3 h)
  -- column `c` of the entering state: the blocks' entries are the arrays' entries of node `r`
  refine (entry_apply x0 x1 p c).trans ?_
  unfold Cert.Spec.h0
  rw [e0 c, e1 c]

end Cert.KernelIdeal.Row

end
-- ==== Proof.KernelArr.lean ====
/-
  The kernel's run with its result named. The one region has 20 grid points; point `t` reads rows `6000·t … 6000·t + 5999`
  of the aggregate and of the node features and the whole transposed weights and biases, and writes the same rows of
  the 120000 × 1 output; the blocks cover the output, so its entry `(r, 0)` is node `r`'s output. The operation after
  the region regroups it row-major as 20000 × 6 × 1: entry `(b, a, 0)` is node `6·b + a`.
-/
import proofs.«106632_j54503134986926_1_alg».proof.Proof.Gen.KernelIdeal.Frame
import proofs.«106632_j54503134986926_1_alg».proof.Proof.KernelRow
import proofs.«106632_j54503134986926_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem
  Idealize.ShloMosaic.ValueIdx

section Lemmas

variable (m : (ℓ : Loc nD τ sig) → Buf (Elt Ideal) ℓ)

/-! ## The arrays the region finds

The aggregate is kept as it is found. The features, the biases and the weights are launch arguments; each weight
matrix reaches the region with its two axes exchanged. -/

/-- The first layer's weights as the region finds them: the launch's 256 × 64 weights with rows and columns
    exchanged. -/
private theorem V_w1t (c : Dev nD) : (V m c main_v52 : S64x256.Idx → EReal)
    = transpose S64x256 [1, 0] (m ((c.tc : Thread nD τ).loc main_arg4)) transposes_S256x64_S64x256_1_0 := by
  dsimp only [Gen.V, Gen.V0]
  simp only [Gen.hostOps0, Gen.hostOps0_1, Gen.hostOps0_2, List.flatten_cons, List.flatten_nil, List.append_nil,
    List.cons_append, List.nil_append]
  after_results_simp

/-- The second layer's weights as the region finds them, exchanged likewise. -/
private theorem V_w2t (c : Dev nD) : (V m c main_v53 : S256x256.Idx → EReal)
    = transpose S256x256 [1, 0] (m ((c.tc : Thread nD τ).loc main_arg6)) transposes_S256x256_S256x256_1_0 := by
  dsimp only [Gen.V, Gen.V0]
  simp only [Gen.hostOps0, Gen.hostOps0_1, Gen.hostOps0_2, List.flatten_cons, List.flatten_nil, List.append_nil,
    List.cons_append, List.nil_append]
  after_results_simp

/-- The output layer's weights as the region finds them: the row of 256 weights stood up as a column. -/
private theorem V_wdt (c : Dev nD) : (V m c main_v54 : S256x1.Idx → EReal)
    = transpose S256x1 [1, 0] (m ((c.tc : Thread nD τ).loc main_arg8)) transposes_S1x256_S256x1_1_0 := by
  dsimp only [Gen.V, Gen.V0]
  simp only [Gen.hostOps0, Gen.hostOps0_1, Gen.hostOps0_2, List.flatten_cons, List.flatten_nil, List.append_nil,
    List.cons_append, List.nil_append]
  after_results_simp

/-! ## The blocks the body reads at a grid point -/

/-- At each of the 20 points `t`, the block index of the aggregate's, the features' and the output's windows is
    `(t, 0)`, and that of every weight's and bias's window is zero. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- The grid has 20 points. -/
private theorem N_eq : cfg0.N = 20 := N_0

/-- Row `p` of block `t` is a row of the 120000-row array: `6000·t + p < 120000`. -/
private theorem row_lt (t : Fin cfg0.N) (p : Fin 6000) : 6000 * t.val + p.val < 120000 := by
  have h1 : t.val < 20 := lt_of_lt_of_eq t.isLt N_eq
  have h2 := p.isLt
  omega

/-- The aggregate's block at point `t`, row `p`: the aggregate's row `6000·t + p`. -/
private theorem read_agg (X : S120000x64.Idx → EReal) (t : Fin cfg0.N) (p : Fin 6000) (q : Fin 64) :
    (((cfg0.win 0).blk t).view.read (Elt Ideal) X : S6000x64.Idx → EReal) (ix2 p q)
      = X (ix2 ⟨6000 * t.val + p.val, row_lt t p⟩ q) := by
  rw [View.read_apply]
  show X (((cfg0.win 0).blk t).view.emb (ix2 p q)) = X _
  refine congrArg X (funext fun a => Fin.ext ?_)
  obtain ⟨e0, e1, -⟩ := idx_facts t
  match a with
  | ⟨0, _⟩ => show win0_0.index t (0 : Fin 2) * 6000 + 1 * p.val = 6000 * t.val + p.val; rw [e0]; omega
  | ⟨1, _⟩ => show win0_0.index t (1 : Fin 2) * 64 + 1 * q.val = q.val; rw [e1]; omega

/-- The node features' block at point `t`, row `p`: the features' row `6000·t + p`. -/
private theorem read_feat (X : S120000x64.Idx → EReal) (t : Fin cfg0.N) (p : Fin 6000) (q : Fin 64) :
    (((cfg0.win 1).blk t).view.read (Elt Ideal) X : S6000x64.Idx → EReal) (ix2 p q)
      = X (ix2 ⟨6000 * t.val + p.val, row_lt t p⟩ q) := by
  rw [View.read_apply]
  show X (((cfg0.win 1).blk t).view.emb (ix2 p q)) = X _
  refine congrArg X (funext fun a => Fin.ext ?_)
  obtain ⟨-, -, e0, e1, -⟩ := idx_facts t
  match a with
  | ⟨0, _⟩ => show win0_1.index t (0 : Fin 2) * 6000 + 1 * p.val = 6000 * t.val + p.val; rw [e0]; omega
  | ⟨1, _⟩ => show win0_1.index t (1 : Fin 2) * 64 + 1 * q.val = q.val; rw [e1]; omega

/-- The output's block at point `t`, row `p`: the output's row `6000·t + p`. -/
private theorem read_out (X : S120000x1.Idx → EReal) (t : Fin cfg0.N) (p : Fin 6000) (q : Fin 1) :
    (((cfg0.win 8).blk t).view.read (Elt Ideal) X : S6000x1.Idx → EReal) (ix2 p q)
      = X (ix2 ⟨6000 * t.val + p.val, row_lt t p⟩ q) := by
  rw [View.read_apply]
  show X (((cfg0.win 8).blk t).view.emb (ix2 p q)) = X _
  refine congrArg X (funext fun a => Fin.ext ?_)
  obtain ⟨-, -, -, -, e0, e1, -⟩ := idx_facts t
  match a with
  | ⟨0, _⟩ => show win0_8.index t (0 : Fin 2) * 6000 + 1 * p.val = 6000 * t.val + p.val; rw [e0]; omega
  | ⟨1, _⟩ => show win0_8.index t (1 : Fin 2) * 1 + 1 * q.val = q.val; rw [e1]; omega

/-- A window whose block is its whole array reads the array itself at every point: the first layer's exchanged
    weights. -/
private theorem read_w1t (X : S64x256.Idx → EReal) (t : Fin cfg0.N) (y : S64x256.Idx) :
    (((cfg0.win 2).blk t).view.read (Elt Ideal) X : S64x256.Idx → EReal) y = X y := by
  rw [View.read_apply]
  show X (((cfg0.win 2).blk t).view.emb y) = X y
  refine congrArg X (funext fun a => Fin.ext ?_)
  obtain ⟨-, -, -, -, -, -, e0, e1, -⟩ := idx_facts t
  match a with
  | ⟨0, _⟩ => show win0_2.index t (0 : Fin 2) * 64 + 1 * (y 0).val = (y 0).val; rw [e0]; omega
  | ⟨1, _⟩ => show win0_2.index t (1 : Fin 2) * 256 + 1 * (y 1).val = (y 1).val; rw [e1]; omega

/-- The first layer's bias is read whole. -/
private theorem read_b1 (X : S256.Idx → EReal) (t : Fin cfg0.N) (y : S256.Idx) :
    (((cfg0.win 3).blk t).view.read (Elt Ideal) X : S256.Idx → EReal) y = X y := by
  rw [View.read_apply]
  show X (((cfg0.win 3).blk t).view.emb y) = X y
  refine congrArg X (funext fun a => Fin.ext ?_)
  obtain ⟨-, -, -, -, -, -, -, -, e0, -⟩ := idx_facts t
  match a with
  | ⟨0, _⟩ => show win0_3.index t (0 : Fin 1) * 256 + 1 * (y 0).val = (y 0).val; rw [e0]; omega

/-- The second layer's exchanged weights are read whole. -/
private theorem read_w2t (X : S256x256.Idx → EReal) (t : Fin cfg0.N) (y : S256x256.Idx) :
    (((cfg0.win 4).blk t).view.read (Elt Ideal) X : S256x256.Idx → EReal) y = X y := by
  rw [View.read_apply]
  show X (((cfg0.win 4).blk t).view.emb y) = X y
  refine congrArg X (funext fun a => Fin.ext ?_)
  obtain ⟨-, -, -, -, -, -, -, -, -, e0, e1, -⟩ := idx_facts t
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The second layer's bias is read whole. -/
private theorem read_b2 (X : S256.Idx → EReal) (t : Fin cfg0.N) (y : S256.Idx) :
    (((cfg0.win 5).blk t).view.read (Elt Ideal) X : S256.Idx → EReal) y = X y := by
  rw [View.read_apply]
  show X (((cfg0.win 5).blk t).view.emb y) = X y
  refine congrArg X (funext fun a => Fin.ext ?_)
  obtain ⟨-, -, -, -, -, -, -, -, -, -, -, e0, -⟩ := idx_facts t
  match a with
  | ⟨0, _⟩ => show win0_5.index t (0 : Fin 1) * 256 + 1 * (y 0).val = (y 0).val; rw [e0]; omega

/-- The output layer's column of weights is read whole. -/
private theorem read_wdt (X : S256x1.Idx → EReal) (t : Fin cfg0.N) (y : S256x1.Idx) :
    (((cfg0.win 6).blk t).view.read (Elt Ideal) X : S256x1.Idx → EReal) y = X y := by
  rw [View.read_apply]
  show X (((cfg0.win 6).blk t).view.emb y) = X y
  refine congrArg X (funext fun a => Fin.ext ?_)
  obtain ⟨-, -, -, -, -, -, -, -, -, -, -, -, e0, e1, -⟩ := idx_facts t
  match a with
  | ⟨0, _⟩ => show win0_6.index t (0 : Fin 2) * 256 + 1 * (y 0).val = (y 0).val; rw [e0]; omega
  | ⟨1, _⟩ => show win0_6.index t (1 : Fin 2) * 1 + 1 * (y 1).val = (y 1).val; rw [e1]; omega

/-- The output layer's bias is read whole. -/
private theorem read_bd (X : S1.Idx → EReal) (t : Fin cfg0.N) (y : S1.Idx) :
    (((cfg0.win 7).blk t).view.read (Elt Ideal) X : S1.Idx → EReal) y = X y := by
  rw [View.read_apply]
  show X (((cfg0.win 7).blk t).view.emb y) = X y
  refine congrArg X (funext fun a => Fin.ext ?_)
  obtain ⟨-, -, -, -, -, -, -, -, -, -, -, -, -, -, e0⟩ := idx_facts t
  match a with
  | ⟨0, _⟩ => show win0_7.index t (0 : Fin 1) * 1 + 1 * (y 0).val = (y 0).val; rw [e0]; omega

/-! ## The blocks of the arrays as the region finds them -/

/-- Row `p` of the aggregate's block at point `t` is the aggregate's row `6000·t + p`. -/
private theorem blk_agg (c : Dev nD) (t : Fin cfg0.N) (p : Fin 6000) (q : Fin 64) :
    (iblk m c 0 t : Vec Ideal S6000x64 .f32) (ix2 p q)
      = (V m c main_v51 : S120000x64.Idx → EReal) (ix2 ⟨6000 * t.val + p.val, row_lt t p⟩ q) :=
  read_agg (V m c main_v51) t p q

/-- Row `p` of the features' block at point `t` is the launch features' row `6000·t + p`. -/
private theorem blk_feat (c : Dev nD) (t : Fin cfg0.N) (p : Fin 6000) (q : Fin 64) :
    (iblk m c 1 t : Vec Ideal S6000x64 .f32) (ix2 p q)
      = (m ((c.tc : Thread nD τ).loc main_arg0) : S120000x64.Idx → EReal) (ix2 ⟨6000 * t.val + p.val, row_lt t p⟩ q) :=
  (read_feat (V m c main_arg0) t p q).trans (congrFun (V_main_arg0 m c) _)

/-- The first layer's weight block at `(k, h)` is the launch weight `(h, k)`. -/
private theorem blk_w1t (c : Dev nD) (t : Fin cfg0.N) (k : Fin 64) (h : Fin 256) :
    (iblk m c 2 t : Vec Ideal S64x256 .f32) (ix2 k h)
      = (m ((c.tc : Thread nD τ).loc main_arg4) : S256x64.Idx → EReal) (ix2 h k) :=
  (read_w1t (V m c main_v52) t (ix2 k h)).trans
    ((congrFun (V_w1t m c) (ix2 k h)).trans (transpose_ix2_apply _ _ k h))

/-- The first layer's bias block is the launch bias. -/
private theorem blk_b1 (c : Dev nD) (t : Fin cfg0.N) (h : Fin 256) :
    (iblk m c 3 t : Vec Ideal S256 .f32) (ix1 h)
      = (m ((c.tc : Thread nD τ).loc main_arg5) : S256.Idx → EReal) (ix1 h) :=
  (read_b1 (V m c main_arg5) t (ix1 h)).trans (congrFun (V_main_arg5 m c) _)

/-- The second layer's weight block at `(h, g)` is the launch weight `(g, h)`. -/
private theorem blk_w2t (c : Dev nD) (t : Fin cfg0.N) (h g : Fin 256) :
    (iblk m c 4 t : Vec Ideal S256x256 .f32) (ix2 h g)
      = (m ((c.tc : Thread nD τ).loc main_arg6) : S256x256.Idx → EReal) (ix2 g h) :=
  (read_w2t (V m c main_v53) t (ix2 h g)).trans
    ((congrFun (V_w2t m c) (ix2 h g)).trans (transpose_ix2_apply _ _ h g))

/-- The second layer's bias block is the launch bias. -/
private theorem blk_b2 (c : Dev nD) (t : Fin cfg0.N) (g : Fin 256) :
    (iblk m c 5 t : Vec Ideal S256 .f32) (ix1 g)
      = (m ((c.tc : Thread nD τ).loc main_arg7) : S256.Idx → EReal) (ix1 g) :=
  (read_b2 (V m c main_arg7) t (ix1 g)).trans (congrFun (V_main_arg7 m c) _)

/-- The output layer's weight block at `(g, 0)` is the launch weight `(0, g)`. -/
private theorem blk_wdt (c : Dev nD) (t : Fin cfg0.N) (g : Fin 256) :
    (iblk m c 6 t : Vec Ideal S256x1 .f32) (ix2 g (0 : Fin 1))
      = (m ((c.tc : Thread nD τ).loc main_arg8) : S1x256.Idx → EReal) (ix2 (0 : Fin 1) g) :=
  (read_wdt (V m c main_v54) t (ix2 g (0 : Fin 1))).trans
    ((congrFun (V_wdt m c) (ix2 g (0 : Fin 1))).trans (transpose_ix2_apply _ _ g (0 : Fin 1)))

/-- The output layer's bias block is the launch bias. -/
private theorem blk_bd (c : Dev nD) (t : Fin cfg0.N) :
    (iblk m c 7 t : Vec Ideal S1 .f32) (ix1 (0 : Fin 1))
      = (m ((c.tc : Thread nD τ).loc main_arg9) : S1.Idx → EReal) (ix1 (0 : Fin 1)) :=
  (read_bd (V m c main_arg9) t (ix1 (0 : Fin 1))).trans (congrFun (V_main_arg9 m c) _)

/-! ## What each point writes back, and the output array after the region -/

/-- The output array the region leaves: entry `(r, 0)` is node `r`'s output, as a function of the aggregate the
    region finds, the node features and the layers' parameters. -/
private def outArr (c : Dev nD) : S120000x1.Idx → EReal := fun j =>
  Cert.Spec.out (V m c main_v51) (m ((c.tc : Thread nD τ).loc main_arg0)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) ⟨(j 0).val, idx2_lt0 j⟩

/-- The zero offsets of a rank-2 rectangle, and of a rank-1 one. -/
private theorem hz2 : (![0, 0] : Fin 2 → Nat) = fun _ => 0 := funext fun a => by fin_cases a <;> rfl
private theorem hz1 : (![0] : Fin 1 → Nat) = fun _ => 0 := funext fun a => by fin_cases a <;> rfl

/-- Two one-column arrays are equal when they agree row by row. -/
private theorem col_ext {n : Nat} (Y Z : (⟨2, ![n, 1]⟩ : Shape).Idx → EReal)
    (h : ∀ p : Fin n, Y (ix2 p (0 : Fin 1)) = Z (ix2 p (0 : Fin 1))) : Y = Z := by
  funext j
  obtain ⟨p, q, rfl⟩ : ∃ (p : Fin n) (q : Fin 1), j = ix2 p q := ⟨j 0, j 1, eq_ix2 j⟩
  obtain rfl : q = 0 := Subsingleton.elim _ _
  exact h p

/-- What point `t` writes back is block `t` of the output array: row `p` of the body's result is the output of
    node `6000·t + p`, whose rows of the aggregate and of the features the point's blocks hold. -/
private theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  unfold out0_8
  rw [View.canon_unit_zero hz2]
  simp only [View.ld_unit_zero (S := S6000x64) hz2, View.ld_unit_zero (S := S64x256) hz2,
    View.ld_unit_zero (S := S256) hz1, View.ld_unit_zero (S := S256x256) hz2,
    View.ld_unit_zero (S := S256x1) hz2, View.ld_unit_zero (S := S1) hz1]
  refine col_ext (n := 6000) _ _ fun p => ?_
  refine Eq.trans ?_ (read_out (outArr m c) t p (0 : Fin 1)).symm
  exact Row.pay_apply (V m c main_v51) (m ((c.tc : Thread nD τ).loc main_arg0))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (iblk m c 0 t) (iblk m c 1 t) (iblk m c 2 t) (iblk m c 3 t) (iblk m c 4 t) (iblk m c 5 t) (iblk m c 6 t)
    (iblk m c 7 t) ⟨6000 * t.val + p.val, row_lt t p⟩ p
    (fun q => blk_agg m c t p q) (fun q => blk_feat m c t p q) (fun k h => blk_w1t m c t k h)
    (fun h => blk_b1 m c t h) (fun h g => blk_w2t m c t h g) (fun g => blk_b2 m c t g)
    (fun g => blk_wdt m c t g) (blk_bd m c t)

/-- Row `r` of the output array is in point `t`'s block iff `6000·t ≤ r < 6000·t + 6000` (and its one column is the
    block's one column). -/
private theorem mem_blk_out (t : Fin cfg0.N) (i : S120000x1.Idx) :
    i ∈ ((cfg0.win 8).blk t).view.set ↔ ∀ a : Fin 2, win0_8.index t a * S6000x1.size a ≤ (i a).val
      ∧ (i a).val < win0_8.index t a * S6000x1.size a + S6000x1.size a := by
  show i ∈ ((View.whole main_v55).slice (win0_8.rect t)).set ↔ _
  rw [View.set_slice_whole, Rect.mem_set_unit]
  exact Iff.rfl

/-- The twenty blocks cover the output array: row `r` lies in the block of point `r / 6000`. -/
private theorem cover_out (i : S120000x1.Idx) :
    ∃ t : Fin cfg0.N, (cfg0.win 8).flush t = true ∧ i ∈ ((cfg0.win 8).blk t).view.set := by
  have hi0 : (i 0).val < 120000 := idx2_lt0 i
  have hi1 : (i 1).val < 1 := idx2_lt1 i
  have ht : (i 0).val / 6000 < cfg0.N := by rw [N_eq]; omega
  refine ⟨⟨(i 0).val / 6000, ht⟩, flush0_8 _, ?_⟩
  rw [mem_blk_out]
  obtain ⟨-, -, -, -, e0, e1, -⟩ := idx_facts ⟨(i 0).val / 6000, ht⟩
  intro a
  match a with
  | ⟨0, _⟩ =>
    show win0_8.index ⟨(i 0).val / 6000, ht⟩ (0 : Fin 2) * 6000 ≤ (i 0).val
      ∧ (i 0).val < win0_8.index ⟨(i 0).val / 6000, ht⟩ (0 : Fin 2) * 6000 + 6000
    rw [e0]; show (i 0).val / 6000 * 6000 ≤ (i 0).val ∧ (i 0).val < (i 0).val / 6000 * 6000 + 6000; omega
  | ⟨1, _⟩ =>
    show win0_8.index ⟨(i 0).val / 6000, ht⟩ (1 : Fin 2) * 1 ≤ (i 1).val
      ∧ (i 1).val < win0_8.index ⟨(i 0).val / 6000, ht⟩ (1 : Fin 2) * 1 + 1
    rw [e1]; omega

/-- After the region the output array holds every node's output. -/
private theorem final_out (c : Dev nD) : (dats m 0 c).arrAt 8 cfg0.N = outArr m c :=
  (dats m 0 c).arrAt_eq_of_cover 8 (outArr m c) (fun t _ => flushed_eq m c t) cover_out

/-! ## The regrouping after the region -/

/-- Two 20000 × 6 × 1 arrays are equal when they agree at every `(b, a, 0)`. -/
private theorem ext_groups (Y Z : S20000x6x1.Idx → EReal)
    (h : ∀ (b : Fin 20000) (a : Fin 6), Y (ix3 b a (0 : Fin 1)) = Z (ix3 b a (0 : Fin 1))) : Y = Z := by
  funext i
  obtain ⟨b, a, z, rfl⟩ : ∃ (b : Fin 20000) (a : Fin 6) (z : Fin 1), i = ix3 b a z := ⟨i 0, i 1, i 2, eq_ix3 i⟩
  obtain rfl : z = 0 := Subsingleton.elim _ _
  exact h b a

/-- Entry `(b, a, 0)` of the regrouped result names a node: `6·b + a < 120000`. -/
private theorem group_lt (b : Fin 20000) (a : Fin 6) : 6 * b.val + a.val < 120000 := by
  have h1 := b.isLt
  have h2 := a.isLt
  omega

/-- The result buffer after the whole program: the output array regrouped row-major as 20000 × 6 × 1, so that entry
    `(b, a, 0)` is node `6·b + a`'s output. -/
private theorem tail_eq (c : Dev nD) :
    Pipeline.afterTail₀ cfgs (dats m) 0 (V0 m) [hostOps1] c main_v56
      = Cert.Spec.G (V m c main_v51) (m ((c.tc : Thread nD τ).loc main_arg0)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) := by
  unfold Pipeline.afterTail₀
  show StableHlo.after hostOps1 _ (Proc.devRef .tc main_v56) = _
  after_results
  rw [(Pipeline.withArrays_arr spec0 launch0.win.arr_inj c _ _ 8).trans (final_out m c)]
  refine ext_groups _ _ fun b a => ?_
  show shapeCast S20000x6x1 (outArr m c) shapeCasts_S120000x1_S20000x6x1 (ix3 b a (0 : Fin 1)) = _
  refine (shapeCast_apply (outArr m c) shapeCasts_S120000x1_S20000x6x1 (ix3 b a (0 : Fin 1))
    (ix2 ⟨6 * b.val + a.val, group_lt b a⟩ (0 : Fin 1)) ?_).trans ?_
  · rw [Shape.rowMajor_val_two, Shape.rowMajor_val_three]
    show (6 * b.val + a.val) * 1 + 0 = (b.val * 6 + a.val) * 1 + 0
    omega
  · rfl

end Lemmas

/-! ## The run -/

/-- Every weakly fair execution of the idealized kernel program terminates with its result at the common function of
    the aggregate as the region finds it (`V m c main_v51`), the node features and the layers' parameters, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
          = Cert.Spec.G (V m c main_v51) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c =>
    ⟨((h c).2 main_v56 (Pipeline.mem_restRefs_of main_v56 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c),
      ((h c).1 7).trans (((dats m 0 c).arrAt_in 7 rfl _).trans ((A_eq m c 7).trans (V_main_arg9 m c)))⟩)
    (run_main m ρ)

end Cert.KernelIdeal.Arr

end
-- ==== Proof.RefOps.lean ====
/-
  The reference's operations, in order, as two lists: `opsA`, the 67 operations that compute the aggregate (degrees by
  a scatter-add of ones over the edges' targets and the self loops, their inverse square roots, the per-edge products
  of the two ends' factors, the linear map of the node features, the gather of the sources' rows scaled by those
  products, their scatter-add into the targets' rows, the bias), and `opsB`, the 31 operations after it (the rectifier
  and the residual, the regrouping, three dense layers). A function the program calls is listed where it is called,
  over that call's own buffers.
-/
import proofs.«106632_j54503134986926_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The operations up to and including the aggregate `main_v51`. -/
abbrev opsA : List (HloOp τ sig (Elt F)) :=
  [
    StableHlo.nullary main_v0 (iotaInDim S120000 32 0),
    StableHlo.unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v1 main_v2 rfl shapeCasts_S1x1200000_S1200000,
    StableHlo.binary main_v2 main_v0 main_v3 ((fun a b => concatenate S1320000 0 [⟨S1200000, a⟩, ⟨S120000, b⟩] concatenates_S1200000_S120000_S1320000_d0) : (⟨S1200000, .i32⟩ : BufTy).Contents (Elt F) → (⟨S120000, .i32⟩ : BufTy).Contents (Elt F) → (⟨S1320000, .i32⟩ : BufTy).Contents (Elt F)),
    StableHlo.unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v4 main_v5 rfl shapeCasts_S1x1200000_S1200000,
    StableHlo.binary main_v5 main_v0 main_v6 ((fun a b => concatenate S1320000 0 [⟨S1200000, a⟩, ⟨S120000, b⟩] concatenates_S1200000_S120000_S1320000_d0) : (⟨S1200000, .i32⟩ : BufTy).Contents (Elt F) → (⟨S120000, .i32⟩ : BufTy).Contents (Elt F) → (⟨S1320000, .i32⟩ : BufTy).Contents (Elt F)),
    StableHlo.nullary main_cst (constant S_ .f32 0x00000000#32),
    StableHlo.unary main_cst main_v7 (broadcastInDim S120000 ![] bcast_S_S120000 : (⟨S_, .f32⟩ : BufTy).Contents (Elt F) → (⟨S120000, .f32⟩ : BufTy).Contents (Elt F)),
    StableHlo.nullary main_c (constantI S_ 32 0#32),
    StableHlo.unary main_c main_v8 (broadcastInDim S1320000 ![] bcast_S_S1320000 : (⟨S_, .i32⟩ : BufTy).Contents (Elt F) → (⟨S1320000, .i32⟩ : BufTy).Contents (Elt F)),
    StableHlo.binary main_v6 main_v8 main_v9 (cmpi .slt : (⟨S1320000, .i32⟩ : BufTy).Contents (Elt F) → (⟨S1320000, .i32⟩ : BufTy).Contents (Elt F) → (⟨S1320000, .i1⟩ : BufTy).Contents (Elt F)),
    StableHlo.nullary main_c_0 (constantI S_ 32 120000#32),
    StableHlo.unary main_c_0 main_v10 (broadcastInDim S1320000 ![] bcast_S_S1320000 : (⟨S_, .i32⟩ : BufTy).Contents (Elt F) → (⟨S1320000, .i32⟩ : BufTy).Contents (Elt F)),
    StableHlo.binary main_v6 main_v10 main_v11 (addi : (⟨S1320000, .i32⟩ : BufTy).Contents (Elt F) → (⟨S1320000, .i32⟩ : BufTy).Contents (Elt F) → (⟨S1320000, .i32⟩ : BufTy).Contents (Elt F)),
    StableHlo.ternary main_v9 main_v11 main_v6 main_v12 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v12 main_v13 (broadcastInDim S1320000x1 ![0] bcast_S1320000_S1320000x1_0 : (⟨S1320000, .i32⟩ : BufTy).Contents (Elt F) → (⟨S1320000x1, .i32⟩ : BufTy).Contents (Elt F)),
    StableHlo.nullary main_cst_1 (constant S_ .f32 0x3F800000#32),
    StableHlo.unary main_cst_1 main_v14 (broadcastInDim S1320000 ![] bcast_S_S1320000 : (⟨S_, .f32⟩ : BufTy).Contents (Elt F) → (⟨S1320000, .f32⟩ : BufTy).Contents (Elt F)),
    StableHlo.ternary main_v7 main_v13 main_v14 main_v15 ((fun x i u => Host.scatterAdd scatter_S120000_S1320000x1_S1320000_n_0_0_1 x i u) : (⟨S120000, .f32⟩ : BufTy).Contents (Elt F) → (⟨S1320000x1, .i32⟩ : BufTy).Contents (Elt F) → (⟨S1320000, .f32⟩ : BufTy).Contents (Elt F) → (⟨S120000, .f32⟩ : BufTy).Contents (Elt F)),
    StableHlo.nullary main_cst_2 (constant S_ .f32 0x00000000#32),
    StableHlo.unary main_cst_2 main_v16 (broadcastInDim S120000 ![] bcast_S_S120000 : (⟨S_, .f32⟩ : BufTy).Contents (Elt F) → (⟨S120000, .f32⟩ : BufTy).Contents (Elt F)),
    StableHlo.binary main_v15 main_v16 main_v17 (cmpf .ogt : (⟨S120000, .f32⟩ : BufTy).Contents (Elt F) → (⟨S120000, .f32⟩ : BufTy).Contents (Elt F) → (⟨S120000, .i1⟩ : BufTy).Contents (Elt F)),
    StableHlo.unary main_v15 main_v18 (Host.rsqrt : (⟨S120000, .f32⟩ : BufTy).Contents (Elt F) → (⟨S120000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S120000 ![] bcast_S_S120000),
    StableHlo.TRef.ternary (.of main_v17 : StableHlo.TRef sig ⟨S120000, .i1⟩) (.of main_v18 : StableHlo.TRef sig ⟨S120000, .f32⟩) main_call0.v1 main_call0.v2 select,
    StableHlo.nullary main_c_4 (constantI S_ 32 0#32),
    StableHlo.unary main_c_4 main_v20 (broadcastInDim S1320000 ![] bcast_S_S1320000 : (⟨S_, .i32⟩ : BufTy).Contents (Elt F) → (⟨S1320000, .i32⟩ : BufTy).Contents (Elt F)),
    StableHlo.binary main_v3 main_v20 main_v21 (cmpi .slt : (⟨S1320000, .i32⟩ : BufTy).Contents (Elt F) → (⟨S1320000, .i32⟩ : BufTy).Contents (Elt F) → (⟨S1320000, .i1⟩ : BufTy).Contents (Elt F)),
    StableHlo.nullary main_c_5 (constantI S_ 32 120000#32),
    StableHlo.unary main_c_5 main_v22 (broadcastInDim S1320000 ![] bcast_S_S1320000 : (⟨S_, .i32⟩ : BufTy).Contents (Elt F) → (⟨S1320000, .i32⟩ : BufTy).Contents (Elt F)),
    StableHlo.binary main_v3 main_v22 main_v23 (addi : (⟨S1320000, .i32⟩ : BufTy).Contents (Elt F) → (⟨S1320000, .i32⟩ : BufTy).Contents (Elt F) → (⟨S1320000, .i32⟩ : BufTy).Contents (Elt F)),
    StableHlo.ternary main_v21 main_v23 main_v3 main_v24 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v24 main_v25 (broadcastInDim S1320000x1 ![0] bcast_S1320000_S1320000x1_0 : (⟨S1320000, .i32⟩ : BufTy).Contents (Elt F) → (⟨S1320000x1, .i32⟩ : BufTy).Contents (Elt F)),
    StableHlo.binary main_v19 main_v25 main_v26 ((fun x i => Host.gather gather_S120000_S1320000x1_S1320000_n_0_n_n_0_1_1 x i) : (⟨S120000, .f32⟩ : BufTy).Contents (Elt F) → (⟨S1320000x1, .i32⟩ : BufTy).Contents (Elt F) → (⟨S1320000, .f32⟩ : BufTy).Contents (Elt F)),
    StableHlo.nullary main_c_6 (constantI S_ 32 0#32),
    StableHlo.unary main_c_6 main_v27 (broadcastInDim S1320000 ![] bcast_S_S1320000 : (⟨S_, .i32⟩ : BufTy).Contents (Elt F) → (⟨S1320000, .i32⟩ : BufTy).Contents (Elt F)),
    StableHlo.binary main_v6 main_v27 main_v28 (cmpi .slt : (⟨S1320000, .i32⟩ : BufTy).Contents (Elt F) → (⟨S1320000, .i32⟩ : BufTy).Contents (Elt F) → (⟨S1320000, .i1⟩ : BufTy).Contents (Elt F)),
    StableHlo.nullary main_c_7 (constantI S_ 32 120000#32),
    StableHlo.unary main_c_7 main_v29 (broadcastInDim S1320000 ![] bcast_S_S1320000 : (⟨S_, .i32⟩ : BufTy).Contents (Elt F) → (⟨S1320000, .i32⟩ : BufTy).Contents (Elt F)),
    StableHlo.binary main_v6 main_v29 main_v30 (addi : (⟨S1320000, .i32⟩ : BufTy).Contents (Elt F) → (⟨S1320000, .i32⟩ : BufTy).Contents (Elt F) → (⟨S1320000, .i32⟩ : BufTy).Contents (Elt F)),
    StableHlo.ternary main_v28 main_v30 main_v6 main_v31 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v31 main_v32 (broadcastInDim S1320000x1 ![0] bcast_S1320000_S1320000x1_0 : (⟨S1320000, .i32⟩ : BufTy).Contents (Elt F) → (⟨S1320000x1, .i32⟩ : BufTy).Contents (Elt F)),
    StableHlo.binary main_v19 main_v32 main_v33 ((fun x i => Host.gather gather_S120000_S1320000x1_S1320000_n_0_n_n_0_1_1 x i) : (⟨S120000, .f32⟩ : BufTy).Contents (Elt F) → (⟨S1320000x1, .i32⟩ : BufTy).Contents (Elt F) → (⟨S1320000, .f32⟩ : BufTy).Contents (Elt F)),
    StableHlo.binary main_v26 main_v33 main_v34 (mulf : (⟨S1320000, .f32⟩ : BufTy).Contents (Elt F) → (⟨S1320000, .f32⟩ : BufTy).Contents (Elt F) → (⟨S1320000, .f32⟩ : BufTy).Contents (Elt F)),
    StableHlo.binary main_arg0 main_arg2 main_v35 ((fun l r => Host.dotGeneral dot_S120000x64_S64x64_S120000x64_1_0_0_1_n_n none l r) : (⟨S120000x64, .f32⟩ : BufTy).Contents (Elt F) → (⟨S64x64, .f32⟩ : BufTy).Contents (Elt F) → (⟨S120000x64, .f32⟩ : BufTy).Contents (Elt F)),
    StableHlo.nullary main_c_8 (constantI S_ 32 0#32),
    StableHlo.unary main_c_8 main_v36 (broadcastInDim S1320000 ![] bcast_S_S1320000 : (⟨S_, .i32⟩ : BufTy).Contents (Elt F) → (⟨S1320000, .i32⟩ : BufTy).Contents (Elt F)),
    StableHlo.binary main_v3 main_v36 main_v37 (cmpi .slt : (⟨S1320000, .i32⟩ : BufTy).Contents (Elt F) → (⟨S1320000, .i32⟩ : BufTy).Contents (Elt F) → (⟨S1320000, .i1⟩ : BufTy).Contents (Elt F)),
    StableHlo.nullary main_c_9 (constantI S_ 32 120000#32),
    StableHlo.unary main_c_9 main_v38 (broadcastInDim S1320000 ![] bcast_S_S1320000 : (⟨S_, .i32⟩ : BufTy).Contents (Elt F) → (⟨S1320000, .i32⟩ : BufTy).Contents (Elt F)),
    StableHlo.binary main_v3 main_v38 main_v39 (addi : (⟨S1320000, .i32⟩ : BufTy).Contents (Elt F) → (⟨S1320000, .i32⟩ : BufTy).Contents (Elt F) → (⟨S1320000, .i32⟩ : BufTy).Contents (Elt F)),
    StableHlo.ternary main_v37 main_v39 main_v3 main_v40 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v40 main_v41 (broadcastInDim S1320000x1 ![0] bcast_S1320000_S1320000x1_0 : (⟨S1320000, .i32⟩ : BufTy).Contents (Elt F) → (⟨S1320000x1, .i32⟩ : BufTy).Contents (Elt F)),
    StableHlo.binary main_v35 main_v41 main_v42 ((fun x i => Host.gather gather_S120000x64_S1320000x1_S1320000x64_1_0_n_n_0_1_164 x i) : (⟨S120000x64, .f32⟩ : BufTy).Contents (Elt F) → (⟨S1320000x1, .i32⟩ : BufTy).Contents (Elt F) → (⟨S1320000x64, .f32⟩ : BufTy).Contents (Elt F)),
    StableHlo.unary main_v34 main_v43 (broadcastInDim S1320000x1 ![0] bcast_S1320000_S1320000x1_0 : (⟨S1320000, .f32⟩ : BufTy).Contents (Elt F) → (⟨S1320000x1, .f32⟩ : BufTy).Contents (Elt F)),
    StableHlo.unary main_v43 main_v44 (broadcastInDim S1320000x64 ![0, 1] bcast_S1320000x1_S1320000x64_0_1 : (⟨S1320000x1, .f32⟩ : BufTy).Contents (Elt F) → (⟨S1320000x64, .f32⟩ : BufTy).Contents (Elt F)),
    StableHlo.binary main_v42 main_v44 main_v45 (mulf : (⟨S1320000x64, .f32⟩ : BufTy).Contents (Elt F) → (⟨S1320000x64, .f32⟩ : BufTy).Contents (Elt F) → (⟨S1320000x64, .f32⟩ : BufTy).Contents (Elt F)),
    StableHlo.nullary main_cst_10 (constant S_ .f32 0x00000000#32),
    StableHlo.unary main_cst_10 main_v46 (broadcastInDim S120000x64 ![] bcast_S_S120000x64 : (⟨S_, .f32⟩ : BufTy).Contents (Elt F) → (⟨S120000x64, .f32⟩ : BufTy).Contents (Elt F)),
    StableHlo.unary main_v6 main_v47 (broadcastInDim S1320000x1 ![0] bcast_S1320000_S1320000x1_0 : (⟨S1320000, .i32⟩ : BufTy).Contents (Elt F) → (⟨S1320000x1, .i32⟩ : BufTy).Contents (Elt F)),
    StableHlo.ternary main_v46 main_v47 main_v45 main_v48 ((fun x i u => Host.scatterAdd scatter_S120000x64_S1320000x1_S1320000x64_1_0_0_1 x i u) : (⟨S120000x64, .f32⟩ : BufTy).Contents (Elt F) → (⟨S1320000x1, .i32⟩ : BufTy).Contents (Elt F) → (⟨S1320000x64, .f32⟩ : BufTy).Contents (Elt F) → (⟨S120000x64, .f32⟩ : BufTy).Contents (Elt F)),
    StableHlo.unary main_arg3 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S120000x64 ![0, 1] bcast_S1x64_S120000x64_0_1 : (⟨S1x64, .f32⟩ : BufTy).Contents (Elt F) → (⟨S120000x64, .f32⟩ : BufTy).Contents (Elt F)),
    StableHlo.binary main_v48 main_v50 main_v51 (addf : (⟨S120000x64, .f32⟩ : BufTy).Contents (Elt F) → (⟨S120000x64, .f32⟩ : BufTy).Contents (Elt F) → (⟨S120000x64, .f32⟩ : BufTy).Contents (Elt F)) ]

/-- The operations after the aggregate, ending in the result `main_v68`. -/
abbrev opsB : List (HloOp τ sig (Elt F)) :=
  [
    StableHlo.TRef.nullary main_call1.cst (constant S_ .f32 0x00000000#32),
    StableHlo.TRef.unary main_call1.cst main_call1.v0 (broadcastInDim S120000x64 ![] bcast_S_S120000x64),
    StableHlo.TRef.binary (.of main_v51 : StableHlo.TRef sig ⟨S120000x64, .f32⟩) main_call1.v0 main_call1.v1 maximumf,
    StableHlo.binary main_v52 main_arg0 main_v53 (addf : (⟨S120000x64, .f32⟩ : BufTy).Contents (Elt F) → (⟨S120000x64, .f32⟩ : BufTy).Contents (Elt F) → (⟨S120000x64, .f32⟩ : BufTy).Contents (Elt F)),
    StableHlo.reshape main_v53 main_v54 rfl shapeCasts_S120000x64_S20000x6x64,
    StableHlo.binary main_v54 main_arg4 main_v55 ((fun l r => Host.dotGeneral dot_S20000x6x64_S256x64_S20000x6x256_2_1_01_0_n_n none l r) : (⟨S20000x6x64, .f32⟩ : BufTy).Contents (Elt F) → (⟨S256x64, .f32⟩ : BufTy).Contents (Elt F) → (⟨S20000x6x256, .f32⟩ : BufTy).Contents (Elt F)),
    StableHlo.unary main_arg5 main_v56 (broadcastInDim S1x1x256 ![2] bcast_S256_S1x1x256_2 : (⟨S256, .f32⟩ : BufTy).Contents (Elt F) → (⟨S1x1x256, .f32⟩ : BufTy).Contents (Elt F)),
    StableHlo.unary main_v56 main_v57 (broadcastInDim S20000x6x256 ![0, 1, 2] bcast_S1x1x256_S20000x6x256_0_1_2 : (⟨S1x1x256, .f32⟩ : BufTy).Contents (Elt F) → (⟨S20000x6x256, .f32⟩ : BufTy).Contents (Elt F)),
    StableHlo.binary main_v55 main_v57 main_v58 (addf : (⟨S20000x6x256, .f32⟩ : BufTy).Contents (Elt F) → (⟨S20000x6x256, .f32⟩ : BufTy).Contents (Elt F) → (⟨S20000x6x256, .f32⟩ : BufTy).Contents (Elt F)),
    StableHlo.TRef.nullary main_call2.cst (constant S_ .f32 0x00000000#32),
    StableHlo.TRef.unary main_call2.cst main_call2.v0 (broadcastInDim S20000x6x256 ![] bcast_S_S20000x6x256),
    StableHlo.TRef.binary (.of main_v58 : StableHlo.TRef sig ⟨S20000x6x256, .f32⟩) main_call2.v0 main_call2.v1 (cmpf .oge),
    StableHlo.TRef.nullary main_call2.cst_0 (constant S_ .f32 0x3C23D70A#32),
    StableHlo.TRef.unary main_call2.cst_0 main_call2.v2 (broadcastInDim S20000x6x256 ![] bcast_S_S20000x6x256),
    StableHlo.TRef.binary main_call2.v2 (.of main_v58 : StableHlo.TRef sig ⟨S20000x6x256, .f32⟩) main_call2.v3 mulf,
    StableHlo.TRef.ternary main_call2.v1 (.of main_v58 : StableHlo.TRef sig ⟨S20000x6x256, .f32⟩) main_call2.v3 main_call2.call0.v0 select,
    StableHlo.binary main_v59 main_arg6 main_v60 ((fun l r => Host.dotGeneral dot_S20000x6x256_S256x256_S20000x6x256_2_1_01_0_n_n none l r) : (⟨S20000x6x256, .f32⟩ : BufTy).Contents (Elt F) → (⟨S256x256, .f32⟩ : BufTy).Contents (Elt F) → (⟨S20000x6x256, .f32⟩ : BufTy).Contents (Elt F)),
    StableHlo.unary main_arg7 main_v61 (broadcastInDim S1x1x256 ![2] bcast_S256_S1x1x256_2 : (⟨S256, .f32⟩ : BufTy).Contents (Elt F) → (⟨S1x1x256, .f32⟩ : BufTy).Contents (Elt F)),
    StableHlo.unary main_v61 main_v62 (broadcastInDim S20000x6x256 ![0, 1, 2] bcast_S1x1x256_S20000x6x256_0_1_2 : (⟨S1x1x256, .f32⟩ : BufTy).Contents (Elt F) → (⟨S20000x6x256, .f32⟩ : BufTy).Contents (Elt F)),
    StableHlo.binary main_v60 main_v62 main_v63 (addf : (⟨S20000x6x256, .f32⟩ : BufTy).Contents (Elt F) → (⟨S20000x6x256, .f32⟩ : BufTy).Contents (Elt F) → (⟨S20000x6x256, .f32⟩ : BufTy).Contents (Elt F)),
    StableHlo.TRef.nullary main_call3.cst (constant S_ .f32 0x00000000#32),
    StableHlo.TRef.unary main_call3.cst main_call3.v0 (broadcastInDim S20000x6x256 ![] bcast_S_S20000x6x256),
    StableHlo.TRef.binary (.of main_v63 : StableHlo.TRef sig ⟨S20000x6x256, .f32⟩) main_call3.v0 main_call3.v1 (cmpf .oge),
    StableHlo.TRef.nullary main_call3.cst_0 (constant S_ .f32 0x3C23D70A#32),
    StableHlo.TRef.unary main_call3.cst_0 main_call3.v2 (broadcastInDim S20000x6x256 ![] bcast_S_S20000x6x256),
    StableHlo.TRef.binary main_call3.v2 (.of main_v63 : StableHlo.TRef sig ⟨S20000x6x256, .f32⟩) main_call3.v3 mulf,
    StableHlo.TRef.ternary main_call3.v1 (.of main_v63 : StableHlo.TRef sig ⟨S20000x6x256, .f32⟩) main_call3.v3 main_call3.call0.v0 select,
    StableHlo.binary main_v64 main_arg8 main_v65 ((fun l r => Host.dotGeneral dot_S20000x6x256_S1x256_S20000x6x1_2_1_01_0_n_n none l r) : (⟨S20000x6x256, .f32⟩ : BufTy).Contents (Elt F) → (⟨S1x256, .f32⟩ : BufTy).Contents (Elt F) → (⟨S20000x6x1, .f32⟩ : BufTy).Contents (Elt F)),
    StableHlo.unary main_arg9 main_v66 (broadcastInDim S1x1x1 ![2] bcast_S1_S1x1x1_2 : (⟨S1, .f32⟩ : BufTy).Contents (Elt F) → (⟨S1x1x1, .f32⟩ : BufTy).Contents (Elt F)),
    StableHlo.unary main_v66 main_v67 (broadcastInDim S20000x6x1 ![0, 1, 2] bcast_S1x1x1_S20000x6x1_0_1_2 : (⟨S1x1x1, .f32⟩ : BufTy).Contents (Elt F) → (⟨S20000x6x1, .f32⟩ : BufTy).Contents (Elt F)),
    StableHlo.binary main_v65 main_v67 main_v68 (addf : (⟨S20000x6x1, .f32⟩ : BufTy).Contents (Elt F) → (⟨S20000x6x1, .f32⟩ : BufTy).Contents (Elt F) → (⟨S20000x6x1, .f32⟩ : BufTy).Contents (Elt F)) ]

end Cert.ReferenceIdeal.RefOps

end
-- ==== Proof.RefTailDef.lean ====
/-
  The reference after the aggregation, as one term: the rectified aggregate plus the node features, regrouped as
  20000 groups of 6 nodes, through two dense layers with a leaky rectifier and a last layer of width one. Each dense
  layer contracts the feature axis of the grouped state with the SECOND axis of its weight matrix (the weights are
  stored output-major), then adds the bias along the last axis.
-/
import proofs.«106632_j54503134986926_1_alg».proof.Proof.Gen.ReferenceIdeal

noncomputable section

namespace Cert.ReferenceIdeal.Tail

open Cert.ReferenceIdeal Cert.ReferenceIdeal.Gen Idealize.ShloMosaic Idealize.ShloMosaic.TcCoe

variable {F : FTy → Type} [FloatOps F]

/-- The leaky rectifier on a grouped hidden state: the entry itself where it is at least zero, the slope word times
    it elsewhere. -/
def leaky (v : FVec F S20000x6x256 .f32) : FVec F S20000x6x256 .f32 :=
  select (cmpf .oge v (broadcastInDim S20000x6x256 ![] bcast_S_S20000x6x256 (constant S_ .f32 0x00000000#32)))
    v (mulf (broadcastInDim S20000x6x256 ![] bcast_S_S20000x6x256 (constant S_ .f32 0x3C23D70A#32)) v)

/-- A bias of 256 entries laid along the last axis of a grouped hidden state. -/
def bias256 (b : FVec F S256 .f32) : FVec F S20000x6x256 .f32 :=
  broadcastInDim S20000x6x256 ![0, 1, 2] bcast_S1x1x256_S20000x6x256_0_1_2
    (broadcastInDim S1x1x256 ![2] bcast_S256_S1x1x256_2 b)

/-- The state entering the first layer, grouped: the rectified aggregate plus the node features, 6 nodes a group. -/
def grouped (A x : FVec F S120000x64 .f32) : FVec F S20000x6x64 .f32 :=
  shapeCast S20000x6x64
    (addf (maximumf A (broadcastInDim S120000x64 ![] bcast_S_S120000x64 (constant S_ .f32 0x00000000#32))) x)
    shapeCasts_S120000x64_S20000x6x64

/-- After the first layer. -/
def layer1 (A x : FVec F S120000x64 .f32) (W1 : FVec F S256x64 .f32) (b1 : FVec F S256 .f32) : FVec F S20000x6x256 .f32 :=
  leaky (addf (Host.dotGeneral dot_S20000x6x64_S256x64_S20000x6x256_2_1_01_0_n_n none (grouped A x) W1) (bias256 b1))

/-- After the second layer. -/
def layer2 (A x : FVec F S120000x64 .f32) (W1 : FVec F S256x64 .f32) (b1 : FVec F S256 .f32)
    (W2 : FVec F S256x256 .f32) (b2 : FVec F S256 .f32) : FVec F S20000x6x256 .f32 :=
  leaky (addf (Host.dotGeneral dot_S20000x6x256_S256x256_S20000x6x256_2_1_01_0_n_n none (layer1 A x W1 b1) W2) (bias256 b2))

/-- The reference's result from the aggregate `A`, the node features and the three layers' parameters. -/
def refTail (A x : FVec F S120000x64 .f32) (W1 : FVec F S256x64 .f32) (b1 : FVec F S256 .f32)
    (W2 : FVec F S256x256 .f32) (b2 : FVec F S256 .f32) (Wd : FVec F S1x256 .f32) (bd : FVec F S1 .f32) :
    FVec F S20000x6x1 .f32 :=
  addf (Host.dotGeneral dot_S20000x6x256_S1x256_S20000x6x1_2_1_01_0_n_n none (layer2 A x W1 b1 W2 b2) Wd)
    (broadcastInDim S20000x6x1 ![0, 1, 2] bcast_S1x1x1_S20000x6x1_0_1_2 (broadcastInDim S1x1x1 ![2] bcast_S1_S1x1x1_2 bd))

end Cert.ReferenceIdeal.Tail

end
-- ==== Proof.RefRun.lean ====
/-
  The reference's run. Its program is the straight line of the 98 operations `opsA ++ opsB`; every weakly fair
  execution ends with each buffer at the fold of those operations over the launch memory. The result buffer is then
  the tail term `Tail.refTail` of the aggregate (what `opsA` leaves in `main_v51`), the node features and the layers'
  parameters, and no operation writes an argument.
-/
import proofs.«106632_j54503134986926_1_alg».proof.Proof.RefOps
import proofs.«106632_j54503134986926_1_alg».proof.Proof.RefTailDef
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe
  Idealize.SL.Sem Idealize.ShloMosaic.StableHlo

variable {F : FTy → Type} [FloatOps F]

/-- The aggregate the reference computes from a launch memory: what `opsA` leaves in `main_v51`. -/
def aggR (m : (ℓ : Loc nD τ sig) → Buf (Elt F) ℓ) (c : Dev nD) : FVec F S120000x64 .f32 :=
  after opsA (launchContents m c) (main_v51 : DevRef τ sig)

/-! ## The program is the straight line -/

set_option maxRecDepth 8192 in
set_option maxHeartbeats 4000000 in
/-- @main is the straight line of the 98 operations: its two windows in order, each of the four called functions'
    bodies (and the select inside each leaky rectifier) standing where it is called, over that call's own buffers;
    both sides are then one chain of steps once sequencing is reassociated (associativity of bind, and a returned
    unit followed by a continuation is the continuation). -/
theorem main_eq (c : Dev nD) : main (F := F) c = seq (opsA ++ opsB) := by
  simp only [main, main_part0, main_part1, fn_where.body, fn_relu.body, fn_leaky_relu.body, fn_where_0.body, seq, bind_assoc,
    pure_bind, List.cons_append, List.nil_append]

/-- The signature scopes no TensorCore buffer. -/
theorem scopedRefs_eq : (Finset.univ.filter fun b : Ref sig .tc => b.isScoped) = ∅ := by decide
/-- It scopes no semaphore either. -/
theorem scopedSems_eq : (Finset.univ.filter fun sm : SemLoc sig => sm.isScoped .tc) = ∅ := by decide

/-- Every operation up to the aggregate touches TensorCore buffers only: its operands' and its result's. -/
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub ..⟩

/-- So does every operation after the aggregate. -/
theorem opsB_sub : (opsB : List (HloOp τ sig (Elt F))).Forall fun op => op.bufs ⊆ tcRefs τ sig :=
  ⟨nullary_bufs_sub .., unary_bufs_sub .., binary_bufs_sub .., binary_bufs_sub .., reshape_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., unary_bufs_sub ..,
    binary_bufs_sub ..⟩

/-- And so every operation of the whole line: a member of a concatenation is a member of one of the two lists. -/
theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

/-- No operation up to the aggregate leaves a result undetermined: each is a function of its operands' contents. -/
theorem opsA_fresh : (opsA : List (HloOp τ sig (Elt F))).Forall fun op => op.fresh = ∅ := by
  simp only [List.Forall]; repeat' constructor

/-- Nor does one after it. -/
theorem opsB_fresh : (opsB : List (HloOp τ sig (Elt F))).Forall fun op => op.fresh = ∅ := by
  simp only [List.Forall]; repeat' constructor

/-- Nor any of the whole line. -/
theorem ops_fresh : ∀ op ∈ (opsA ++ opsB : List (HloOp τ sig (Elt F))), op.fresh = ∅ :=
  fun op h => (List.mem_append.mp h).elim
    (List.forall_iff_forall_mem.mp opsA_fresh op) (List.forall_iff_forall_mem.mp opsB_fresh op)

/-! ## The fold, in two halves -/

/-- The fold of a concatenation is the fold of the second list over the fold of the first (induction on the first
    list: each side peels the same head operation). -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 1600000 in
/-- From ANY contents `W`, the 31 operations after the aggregate leave in `main_v68` the tail term of what `W` holds
    at the aggregate `main_v51`, at the node features and at the three layers' parameters. Read backwards from the
    result: an operation's result at its own buffer is its function of its operands' contents, and at any other buffer
    what was there; the chain from `main_v68` passes through the rectifier's buffers of call 1 (into `main_v52`), the
    two leaky rectifiers' of calls 2 and 3 (their selects into `main_v59` and `main_v64`), the three products and the
    three biases, and ends at `main_v51` and the seven arguments, none of which the 31 write. The typed references'
    transports are identities at these literal references, so the composed term is `Tail.refTail` as written. -/
theorem tail_eq (W : Valuation τ sig (Elt F)) :
    after opsB W (main_v68 : DevRef τ sig)
      = Tail.refTail (W (main_v51 : DevRef τ sig)) (W (main_arg0 : DevRef τ sig)) (W (main_arg4 : DevRef τ sig))
          (W (main_arg5 : DevRef τ sig)) (W (main_arg6 : DevRef τ sig)) (W (main_arg7 : DevRef τ sig))
          (W (main_arg8 : DevRef τ sig)) (W (main_arg9 : DevRef τ sig)) := by
  after_results_simp
  rfl

/-! ## No operation writes an argument

Each operation writes its result buffer only, and no result buffer of either list is one of the ten arguments (they are
different references): so either fold leaves every argument as it found it. -/

/-- An argument survives a list: the list's operations each write one buffer, a reference other than the argument. -/
local macro "keeps_argument" : tactic =>
  `(tactic| (refine after_of_forall_not_mem _ _ (List.forall_iff_forall_mem.mp ?_)
             simp only [List.Forall, nullary_writes, unary_writes, binary_writes, ternary_writes, reshape_writes, Finset.mem_singleton]
             repeat' apply And.intro
             all_goals exact devRef_ne_of_ne (by decide)))

theorem opsA_arg0 (V : Valuation τ sig (Elt F)) : after opsA V (main_arg0 : DevRef τ sig) = V (main_arg0 : DevRef τ sig) := by
  keeps_argument
theorem opsA_arg1 (V : Valuation τ sig (Elt F)) : after opsA V (main_arg1 : DevRef τ sig) = V (main_arg1 : DevRef τ sig) := by
  keeps_argument
theorem opsA_arg2 (V : Valuation τ sig (Elt F)) : after opsA V (main_arg2 : DevRef τ sig) = V (main_arg2 : DevRef τ sig) := by
  keeps_argument
theorem opsA_arg3 (V : Valuation τ sig (Elt F)) : after opsA V (main_arg3 : DevRef τ sig) = V (main_arg3 : DevRef τ sig) := by
  keeps_argument
theorem opsA_arg4 (V : Valuation τ sig (Elt F)) : after opsA V (main_arg4 : DevRef τ sig) = V (main_arg4 : DevRef τ sig) := by
  keeps_argument
theorem opsA_arg5 (V : Valuation τ sig (Elt F)) : after opsA V (main_arg5 : DevRef τ sig) = V (main_arg5 : DevRef τ sig) := by
  keeps_argument
theorem opsA_arg6 (V : Valuation τ sig (Elt F)) : after opsA V (main_arg6 : DevRef τ sig) = V (main_arg6 : DevRef τ sig) := by
  keeps_argument
theorem opsA_arg7 (V : Valuation τ sig (Elt F)) : after opsA V (main_arg7 : DevRef τ sig) = V (main_arg7 : DevRef τ sig) := by
  keeps_argument
theorem opsA_arg8 (V : Valuation τ sig (Elt F)) : after opsA V (main_arg8 : DevRef τ sig) = V (main_arg8 : DevRef τ sig) := by
  keeps_argument
theorem opsA_arg9 (V : Valuation τ sig (Elt F)) : after opsA V (main_arg9 : DevRef τ sig) = V (main_arg9 : DevRef τ sig) := by
  keeps_argument

theorem opsB_arg0 (V : Valuation τ sig (Elt F)) : after opsB V (main_arg0 : DevRef τ sig) = V (main_arg0 : DevRef τ sig) := by
  keeps_argument
theorem opsB_arg1 (V : Valuation τ sig (Elt F)) : after opsB V (main_arg1 : DevRef τ sig) = V (main_arg1 : DevRef τ sig) := by
  keeps_argument
theorem opsB_arg2 (V : Valuation τ sig (Elt F)) : after opsB V (main_arg2 : DevRef τ sig) = V (main_arg2 : DevRef τ sig) := by
  keeps_argument
theorem opsB_arg3 (V : Valuation τ sig (Elt F)) : after opsB V (main_arg3 : DevRef τ sig) = V (main_arg3 : DevRef τ sig) := by
  keeps_argument
theorem opsB_arg4 (V : Valuation τ sig (Elt F)) : after opsB V (main_arg4 : DevRef τ sig) = V (main_arg4 : DevRef τ sig) := by
  keeps_argument
theorem opsB_arg5 (V : Valuation τ sig (Elt F)) : after opsB V (main_arg5 : DevRef τ sig) = V (main_arg5 : DevRef τ sig) := by
  keeps_argument
theorem opsB_arg6 (V : Valuation τ sig (Elt F)) : after opsB V (main_arg6 : DevRef τ sig) = V (main_arg6 : DevRef τ sig) := by
  keeps_argument
theorem opsB_arg7 (V : Valuation τ sig (Elt F)) : after opsB V (main_arg7 : DevRef τ sig) = V (main_arg7 : DevRef τ sig) := by
  keeps_argument
theorem opsB_arg8 (V : Valuation τ sig (Elt F)) : after opsB V (main_arg8 : DevRef τ sig) = V (main_arg8 : DevRef τ sig) := by
  keeps_argument
theorem opsB_arg9 (V : Valuation τ sig (Elt F)) : after opsB V (main_arg9 : DevRef τ sig) = V (main_arg9 : DevRef τ sig) := by
  keeps_argument

/-! ## The result -/

/-- The whole fold at the result buffer: the second half's tail term (`tail_eq` at the first half's fold), whose
    aggregate is `aggR` by definition and whose seven arguments the first half left at their launch contents. -/
theorem result_eq (m : (ℓ : Loc nD τ sig) → Buf (Elt F) ℓ) (c : Dev nD) :
    after (opsA ++ opsB) (launchContents m c) (main_v68 : DevRef τ sig)
      = Tail.refTail (aggR m c) (m ((c.tc : Thread nD τ).loc main_arg0)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) := by
  rw [after_app, tail_eq, opsA_arg0, opsA_arg4, opsA_arg5, opsA_arg6, opsA_arg7, opsA_arg8, opsA_arg9]
  rfl

/-- Every weakly fair execution of the reference terminates with the result at the tail term of the aggregate and the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = Tail.refTail (aggR m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v68).trans (result_eq m c),
      (h c main_arg0).trans (by rw [after_app, opsB_arg0, opsA_arg0]),
      (h c main_arg1).trans (by rw [after_app, opsB_arg1, opsA_arg1]),
      (h c main_arg2).trans (by rw [after_app, opsB_arg2, opsA_arg2]),
      (h c main_arg3).trans (by rw [after_app, opsB_arg3, opsA_arg3]),
      (h c main_arg4).trans (by rw [after_app, opsB_arg4, opsA_arg4]),
      (h c main_arg5).trans (by rw [after_app, opsB_arg5, opsA_arg5]),
      (h c main_arg6).trans (by rw [after_app, opsB_arg6, opsA_arg6]),
      (h c main_arg7).trans (by rw [after_app, opsB_arg7, opsA_arg7]),
      (h c main_arg8).trans (by rw [after_app, opsB_arg8, opsA_arg8]),
      (h c main_arg9).trans (by rw [after_app, opsB_arg9, opsA_arg9])⟩)
    (run_seq scopedRefs_eq scopedSems_eq defs main (fun _ => opsA ++ opsB) main_eq (fun _ => ops_sub) m ρ (fun _ => ops_fresh))

end Cert.ReferenceIdeal.RefRun

end
-- ==== Proof.RefTailValue.lean ====
/-
  The reference's tail read at an index: entry `(b, a, 0)` of its result is the output of node `6·b + a`. The regrouping
  is row-major, so entry `(b, a, c)` of the grouped state is entry `(6·b + a, c)` of the node-major one; each dense layer's
  contraction is a sum over the feature axis of the state times the weight read output-major; a bias laid along the
  last axis is read at that axis' coordinate.
-/
import proofs.«106632_j54503134986926_1_alg».proof.Proof.RefTailDef
import proofs.«106632_j54503134986926_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.TailValue

open Cert.ReferenceIdeal Cert.ReferenceIdeal.Gen Idealize.ShloMosaic Idealize.ShloMosaic.TcCoe Idealize.ShloMosaic.ValueIdx

/-! ## A grouped state contracted with an output-major weight -/

/-- The contraction sum of a `[B, A, K]` state with an `[N, K]` weight at entry `(b, a, n)` is `∑ₖ l(b,a,k)·r(n,k)`: the
    one contracted axis is re-indexed by its coordinate; the state is read at the entry's group and member, the weight at
    the entry's output coordinate (the five hypotheses say so of the dimension numbers, coordinate by coordinate). -/
private theorem sum_rows {B A K N : Nat} (D : DotDims ⟨3, ![B, A, K]⟩ ⟨2, ![N, K]⟩ ⟨3, ![B, A, N]⟩)
    (hr : D.contr.rank = 1) (hs : D.contr.size ⟨0, by omega⟩ = K)
    (hl0 : ∀ (i : (⟨3, ![B, A, N]⟩ : Shape).Idx) (q : D.contr.Idx), (D.lhsIdx i q 0).val = (i 0).val)
    (hl1 : ∀ (i : (⟨3, ![B, A, N]⟩ : Shape).Idx) (q : D.contr.Idx), (D.lhsIdx i q 1).val = (i 1).val)
    (hl2 : ∀ (i : (⟨3, ![B, A, N]⟩ : Shape).Idx) (q : D.contr.Idx), (D.lhsIdx i q 2).val = (q ⟨0, by omega⟩).val)
    (hr0 : ∀ (i : (⟨3, ![B, A, N]⟩ : Shape).Idx) (q : D.contr.Idx), (D.rhsIdx i q 0).val = (i 2).val)
    (hr1 : ∀ (i : (⟨3, ![B, A, N]⟩ : Shape).Idx) (q : D.contr.Idx), (D.rhsIdx i q 1).val = (q ⟨0, by omega⟩).val)
    (l : (⟨3, ![B, A, K]⟩ : Shape).Idx → EReal) (r : (⟨2, ![N, K]⟩ : Shape).Idx → EReal)
    (b : Fin B) (a : Fin A) (n : Fin N) :
    ∑ q : D.contr.Idx, l (D.lhsIdx (ix3 b a n) q) * r (D.rhsIdx (ix3 b a n) q)
      = ∑ k : Fin K, l (ix3 b a k) * r (ix2 n k) := by
  rw [← Equiv.sum_comp (contrEquiv1 D K hr hs).symm]
  refine Finset.sum_congr rfl fun k _ => ?_
  have hk := contrEquiv1_symm_val D K hr hs k
  have el : D.lhsIdx (ix3 b a n) ((contrEquiv1 D K hr hs).symm k) = ix3 b a k := funext fun c => Fin.ext (by
    match c with
    | ⟨0, _⟩ => exact hl0 _ _
    | ⟨1, _⟩ => exact hl1 _ _
    | ⟨2, _⟩ => exact (hl2 _ _).trans hk)
  have er : D.rhsIdx (ix3 b a n) ((contrEquiv1 D K hr hs).symm k) = ix2 n k := funext fun c => Fin.ext (by
    match c with
    | ⟨0, _⟩ => exact hr0 _ _
    | ⟨1, _⟩ => exact (hr1 _ _).trans hk)
  rw [el, er]

/-- The same contraction as the reference writes it, with no accumulator: entry `(b, a, n)` is `∑ₖ l(b,a,k)·r(n,k)`. -/
private theorem dot_rows_apply {B A K N : Nat} (D : DotDims ⟨3, ![B, A, K]⟩ ⟨2, ![N, K]⟩ ⟨3, ![B, A, N]⟩)
    (hr : D.contr.rank = 1) (hs : D.contr.size ⟨0, by omega⟩ = K)
    (hl0 : ∀ (i : (⟨3, ![B, A, N]⟩ : Shape).Idx) (q : D.contr.Idx), (D.lhsIdx i q 0).val = (i 0).val)
    (hl1 : ∀ (i : (⟨3, ![B, A, N]⟩ : Shape).Idx) (q : D.contr.Idx), (D.lhsIdx i q 1).val = (i 1).val)
    (hl2 : ∀ (i : (⟨3, ![B, A, N]⟩ : Shape).Idx) (q : D.contr.Idx), (D.lhsIdx i q 2).val = (q ⟨0, by omega⟩).val)
    (hr0 : ∀ (i : (⟨3, ![B, A, N]⟩ : Shape).Idx) (q : D.contr.Idx), (D.rhsIdx i q 0).val = (i 2).val)
    (hr1 : ∀ (i : (⟨3, ![B, A, N]⟩ : Shape).Idx) (q : D.contr.Idx), (D.rhsIdx i q 1).val = (q ⟨0, by omega⟩).val)
    (l : FVec Ideal ⟨3, ![B, A, K]⟩ .f32) (r : FVec Ideal ⟨2, ![N, K]⟩ .f32)
    (b : Fin B) (a : Fin A) (n : Fin N) :
    Host.dotGeneral D none l r (ix3 b a n) = ∑ k : Fin K, l (ix3 b a k) * r (ix2 n k) := by
  refine (Ideal.dotGeneral_apply D none .single l r (ix3 b a n)).trans ?_
  exact sum_rows D hr hs hl0 hl1 hl2 hr0 hr1 l r b a n

/-! ## The three layers' contractions

Each contracts the state's last axis with the weight's last axis; the group and member axes of the state and the
weight's output axis pass to the result in that order. -/

/-- The first layer's contraction: 64 features against a `[256, 64]` weight. -/
private theorem dot1_apply (l : FVec Ideal S20000x6x64 .f32) (r : FVec Ideal S256x64 .f32)
    (b : Fin 20000) (a : Fin 6) (n : Fin 256) :
    Host.dotGeneral dot_S20000x6x64_S256x64_S20000x6x256_2_1_01_0_n_n none l r (ix3 b a n)
      = ∑ k : Fin 64, l (ix3 b a k) * r (ix2 n k) := by
  refine dot_rows_apply dot_S20000x6x64_S256x64_S20000x6x256_2_1_01_0_n_n rfl rfl ?_ ?_ ?_ ?_ ?_ l r b a n
  · intro i q; rfl
  · intro i q; rfl
  · intro i q; exact DotDims.lhsIdx_val_of_single _ rfl i q
  · intro i q; rfl
  · intro i q; exact DotDims.rhsIdx_val_of_single _ rfl i q

/-- The second layer's contraction: 256 hidden entries against a `[256, 256]` weight. -/
private theorem dot2_apply (l : FVec Ideal S20000x6x256 .f32) (r : FVec Ideal S256x256 .f32)
    (b : Fin 20000) (a : Fin 6) (n : Fin 256) :
    Host.dotGeneral dot_S20000x6x256_S256x256_S20000x6x256_2_1_01_0_n_n none l r (ix3 b a n)
      = ∑ k : Fin 256, l (ix3 b a k) * r (ix2 n k) := by
  refine dot_rows_apply dot_S20000x6x256_S256x256_S20000x6x256_2_1_01_0_n_n rfl rfl ?_ ?_ ?_ ?_ ?_ l r b a n
  · intro i q; rfl
  · intro i q; rfl
  · intro i q; exact DotDims.lhsIdx_val_of_single _ rfl i q
  · intro i q; rfl
  · intro i q; exact DotDims.rhsIdx_val_of_single _ rfl i q

/-- The output layer's contraction: 256 hidden entries against a `[1, 256]` weight. -/
private theorem dot3_apply (l : FVec Ideal S20000x6x256 .f32) (r : FVec Ideal S1x256 .f32)
    (b : Fin 20000) (a : Fin 6) (n : Fin 1) :
    Host.dotGeneral dot_S20000x6x256_S1x256_S20000x6x1_2_1_01_0_n_n none l r (ix3 b a n)
      = ∑ k : Fin 256, l (ix3 b a k) * r (ix2 n k) := by
  refine dot_rows_apply dot_S20000x6x256_S1x256_S20000x6x1_2_1_01_0_n_n rfl rfl ?_ ?_ ?_ ?_ ?_ l r b a n
  · intro i q; rfl
  · intro i q; rfl
  · intro i q; exact DotDims.lhsIdx_val_of_single _ rfl i q
  · intro i q; rfl
  · intro i q; exact DotDims.rhsIdx_val_of_single _ rfl i q

/-! ## The pointwise pieces -/

/-- The rectifier on an array is the scalar rectifier at each entry: the comparison with the zero word, the choice and
    the product with the slope word are all entrywise, and a splat reads its word everywhere. -/
private theorem leaky_apply (v : FVec Ideal S20000x6x256 .f32) (j : S20000x6x256.Idx) :
    Tail.leaky (F := Ideal) v j = Cert.Spec.lrelu (v j) := rfl

/-- A 256-entry bias laid along the last axis reads, at `(b, a, g)`, its entry `g`: through `[1, 1, 256]` the two unit
    axes read coordinate `0` and the last axis keeps its coordinate. -/
private theorem bias256_apply (bv : FVec Ideal S256 .f32) (b : Fin 20000) (a : Fin 6) (g : Fin 256) :
    Tail.bias256 (F := Ideal) bv (ix3 b a g) = bv (ix1 g) := by
  unfold Tail.bias256
  refine (broadcastInDim_apply _ _ _ (ix3 b a g) (ix3 (0 : Fin 1) (0 : Fin 1) g) fun c => ?_).trans ?_
  · match c with
    | ⟨0, _⟩ => rfl
    | ⟨1, _⟩ => rfl
    | ⟨2, _⟩ => rfl
  · refine broadcastInDim_apply _ _ _ (ix3 (0 : Fin 1) (0 : Fin 1) g) (ix1 g) fun c => ?_
    match c with
    | ⟨0, _⟩ => rfl

/-- The one-entry bias laid over the `[20000, 6, 1]` result reads its only entry everywhere: every axis it passes
    through has extent one. -/
private theorem bias1_apply (bv : FVec Ideal S1 .f32) (b : Fin 20000) (a : Fin 6) (z : Fin 1) :
    broadcastInDim S20000x6x1 ![0, 1, 2] Facts₀.bcast_S1x1x1_S20000x6x1_0_1_2
        (broadcastInDim S1x1x1 ![2] Facts₀.bcast_S1_S1x1x1_2 bv) (ix3 b a z)
      = bv (ix1 (0 : Fin 1)) := by
  refine (broadcastInDim_apply _ _ _ (ix3 b a z) (ix3 (0 : Fin 1) (0 : Fin 1) (0 : Fin 1)) fun c => ?_).trans ?_
  · match c with
    | ⟨0, _⟩ => rfl
    | ⟨1, _⟩ => rfl
    | ⟨2, _⟩ => rfl
  · refine broadcastInDim_apply _ _ _ (ix3 (0 : Fin 1) (0 : Fin 1) (0 : Fin 1)) (ix1 (0 : Fin 1)) fun c => ?_
    match c with
    | ⟨0, _⟩ => rfl

/-! ## The layers, inside out

Throughout, `r` is the node `6·b + a` that member `a` of group `b` is. -/

/-- The grouped entering state at `(b, a, c)` is node `r`'s entering state at feature `c`: the regrouping keeps the
    row-major position, and `(6·b + a)·64 + c = (b·6 + a)·64 + c`; the maximum with the zero splat and the sum are
    entrywise. -/
private theorem grouped_apply (A x : FVec Ideal S120000x64 .f32) (b : Fin 20000) (a : Fin 6) (c : Fin 64)
    (r : Fin 120000) (hr : r.val = 6 * b.val + a.val) :
    Tail.grouped (F := Ideal) A x (ix3 b a c) = Cert.Spec.h0 A x r c := by
  unfold Tail.grouped
  refine (shapeCast_apply _ _ (ix3 b a c) (ix2 r c) ?_).trans rfl
  rw [Shape.rowMajor_val_two, Shape.rowMajor_val_three]
  show r.val * 64 + c.val = (b.val * 6 + a.val) * 64 + c.val
  omega

/-- After the first layer: the rectifier of the contraction over the 64 features plus the bias' entry `h`, the summands
    equal one by one through the regrouping. -/
private theorem layer1_apply (A x : FVec Ideal S120000x64 .f32) (W1 : FVec Ideal S256x64 .f32) (b1 : FVec Ideal S256 .f32)
    (b : Fin 20000) (a : Fin 6) (h : Fin 256) (r : Fin 120000) (hr : r.val = 6 * b.val + a.val) :
    Tail.layer1 (F := Ideal) A x W1 b1 (ix3 b a h) = Cert.Spec.h1 A x W1 b1 r h := by
  show Cert.Spec.lrelu
      (Host.dotGeneral dot_S20000x6x64_S256x64_S20000x6x256_2_1_01_0_n_n none (Tail.grouped (F := Ideal) A x) W1 (ix3 b a h)
        + Tail.bias256 (F := Ideal) b1 (ix3 b a h)) = _
  rw [dot1_apply, bias256_apply]
  unfold Cert.Spec.h1
  refine congrArg (fun s => Cert.Spec.lrelu (s + b1 (ix1 h))) (Finset.sum_congr rfl fun c _ => ?_)
  rw [grouped_apply A x b a c r hr]

/-- After the second layer: the same shape of argument one layer up, the summands equal through the first layer. -/
private theorem layer2_apply (A x : FVec Ideal S120000x64 .f32) (W1 : FVec Ideal S256x64 .f32) (b1 : FVec Ideal S256 .f32)
    (W2 : FVec Ideal S256x256 .f32) (b2 : FVec Ideal S256 .f32)
    (b : Fin 20000) (a : Fin 6) (g : Fin 256) (r : Fin 120000) (hr : r.val = 6 * b.val + a.val) :
    Tail.layer2 (F := Ideal) A x W1 b1 W2 b2 (ix3 b a g) = Cert.Spec.h2 A x W1 b1 W2 b2 r g := by
  show Cert.Spec.lrelu
      (Host.dotGeneral dot_S20000x6x256_S256x256_S20000x6x256_2_1_01_0_n_n none (Tail.layer1 (F := Ideal) A x W1 b1) W2 (ix3 b a g)
        + Tail.bias256 (F := Ideal) b2 (ix3 b a g)) = _
  rw [dot2_apply, bias256_apply]
  unfold Cert.Spec.h2
  refine congrArg (fun s => Cert.Spec.lrelu (s + b2 (ix1 g))) (Finset.sum_congr rfl fun h _ => ?_)
  rw [layer1_apply A x W1 b1 b a h r hr]

/-- The reference's tail term is the common function of the aggregate, the node features and the parameters: at entry
    `(b, a, 0)` both are the contraction of node `6·b + a`'s second hidden state with the output weight's one row, plus
    the output bias. -/
theorem refTail_eq (A x : FVec Ideal S120000x64 .f32) (W1 : FVec Ideal S256x64 .f32) (b1 : FVec Ideal S256 .f32)
    (W2 : FVec Ideal S256x256 .f32) (b2 : FVec Ideal S256 .f32) (Wd : FVec Ideal S1x256 .f32) (bd : FVec Ideal S1 .f32) :
    Tail.refTail (F := Ideal) A x W1 b1 W2 b2 Wd bd = Cert.Spec.G A x W1 b1 W2 b2 Wd bd := by
  funext i
  obtain ⟨b, a, z, rfl⟩ : ∃ (b : Fin 20000) (a : Fin 6) (z : Fin 1), i = ix3 b a z := ⟨i 0, i 1, i 2, eq_ix3 i⟩
  obtain rfl : z = 0 := Subsingleton.elim _ _
  show Host.dotGeneral dot_S20000x6x256_S1x256_S20000x6x1_2_1_01_0_n_n none (Tail.layer2 (F := Ideal) A x W1 b1 W2 b2) Wd (ix3 b a 0)
      + broadcastInDim S20000x6x1 ![0, 1, 2] Facts₀.bcast_S1x1x1_S20000x6x1_0_1_2
          (broadcastInDim S1x1x1 ![2] Facts₀.bcast_S1_S1x1x1_2 bd) (ix3 b a 0)
    = Cert.Spec.out A x W1 b1 W2 b2 Wd bd (Cert.Spec.row (ix3 b a 0))
  rw [dot3_apply, bias1_apply]
  unfold Cert.Spec.out
  refine congrArg (fun s => s + bd (ix1 (0 : Fin 1))) (Finset.sum_congr rfl fun g _ => ?_)
  rw [layer2_apply A x W1 b1 W2 b2 b a g (Cert.Spec.row (ix3 b a 0)) rfl]

end Cert.ReferenceIdeal.TailValue

end
-- ==== Proof.Bridge.lean ====
/-
  The two programs compute the aggregate by the same operations. The kernel's program runs, before its region, the
  operations the reference runs first (degrees, inverse square roots, the scaled gather, the scatter-add, the bias):
  from memories that agree on the node features, the edges, the linear map and its bias, the aggregate the region
  finds is the aggregate the reference's first 67 operations leave. The chain is carried as it stands: both sides are
  the same composition of the same operations and are never opened.
-/
import proofs.«106632_j54503134986926_1_alg».proof.Proof.Gen.KernelIdeal.Frame
import proofs.«106632_j54503134986926_1_alg».proof.Proof.RefRun
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

-- the scatter-add and the gather are kept folded while the two compositions are compared: the comparison never looks inside them
attribute [local irreducible] Host.scatterAdd Host.gather in
set_option maxRecDepth 65536 in
set_option maxHeartbeats 4000000 in
/-- From memories agreeing on the four arguments the aggregation reads, the aggregate the kernel's region finds is the
    aggregate the reference computes. Each side is a fold of its program's operations over the launch memory; read
    backwards from the aggregate's buffer, an operation's result at its own buffer is its function of its operands'
    contents and at any other buffer what was there, so each fold becomes the composed term of the four arguments
    (the reads inside a concatenation's operand list are finished one by one). The reference's arguments are then the
    kernel's by hypothesis, and the two composed terms are the same composition of the same operations: they differ only
    in which program's copy of a shape or of a dimension record they name, and those copies are equal by definition. -/
theorem agg_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RefRun.aggR (F := Ideal) m' c = Cert.KernelIdeal.Gen.V m c Cert.KernelIdeal.main_v51 := by
  unfold Cert.ReferenceIdeal.RefRun.aggR
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.ReferenceIdeal.RefOps.opsA,
    List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  rw [e0, e1, e2, e3]
  rfl

end Cert.Bridge

end
-- ==== Proof.lean ====
/-
  The kernel against its reference, over the extended reals.

  Both programs first compute the same aggregate `A` of the node features over the graph (a normalised
  gather–scatter), by the same operations in the same order. The reference then applies, on the host, the rectifier and
  the residual, regroups the 120000 nodes as 20000 groups of 6, and runs two dense layers with a leaky rectifier and a
  last layer of width one. The kernel program does the same arithmetic in one region over blocks of 6000 nodes, with the
  weights transposed beforehand so that each layer is a plain rows-by-columns product, and regroups the 120000 × 1
  output afterwards. A sum of products over the feature axis is the same sum whichever way the weight matrix is stored,
  and the regrouping is row-major on both sides, so the two results are one function, node by node
  (`Cert.Spec.G`): no law of the extended reals beyond this re-indexing is used, and the precondition is never opened.

  The three frames: the kernel programs' are the generated frame certificates; the reference's is its run with the
  result dropped. The idealization rewrote nothing, so `preserves` asks nothing.
-/
import proofs.«106632_j54503134986926_1_alg».proof.Defs
import proofs.«106632_j54503134986926_1_alg».proof.Proof.Gen.Kernel
import proofs.«106632_j54503134986926_1_alg».proof.Proof.Gen.Kernel.Skeleton
import proofs.«106632_j54503134986926_1_alg».proof.Proof.Gen.Kernel.Launch
import proofs.«106632_j54503134986926_1_alg».proof.Proof.Gen.Kernel.Points
import proofs.«106632_j54503134986926_1_alg».proof.Proof.Gen.Kernel.Frame
import proofs.«106632_j54503134986926_1_alg».proof.Proof.Gen.KernelIdeal
import proofs.«106632_j54503134986926_1_alg».proof.Proof.Gen.KernelIdeal.Skeleton
import proofs.«106632_j54503134986926_1_alg».proof.Proof.Gen.KernelIdeal.Launch
import proofs.«106632_j54503134986926_1_alg».proof.Proof.Gen.KernelIdeal.Points
import proofs.«106632_j54503134986926_1_alg».proof.Proof.Gen.KernelIdeal.Frame
import proofs.«106632_j54503134986926_1_alg».proof.Proof.Gen.ReferenceIdeal
import proofs.«106632_j54503134986926_1_alg».proof.Proof.Gen.Pre_finite_inputs
import proofs.«106632_j54503134986926_1_alg».proof.Proof.KernelArr
import proofs.«106632_j54503134986926_1_alg».proof.Proof.RefRun
import proofs.«106632_j54503134986926_1_alg».proof.Proof.RefTailValue
import proofs.«106632_j54503134986926_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end at the common function of the aggregate, the node features and the parameters; the aggregates agree
    because the memories agree on what the aggregation reads. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [Cert.ReferenceIdeal.TailValue.refTail_eq, Cert.Bridge.agg_eq m m' c h0 h1 h2 h3, h0, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
